-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1 : S_.BroadcastsInDim S1 (![] : Fin 0 → Fin S1.rank)
  reducesTo_S1_S_d0 : S1.ReducesTo [0] S_
  bcast_S_S512x512x5 : S_.BroadcastsInDim S512x512x5 (![] : Fin 0 → Fin S512x512x5.rank)
  reducesTo_S512x512x5_S_d0_1_2 : S512x512x5.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part5 {F : FTy → Type} [FloatOps F] (main_arg18 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1 .f32) (main_arg15 : FVec F S5x32 .f32) (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S5x32 .f32 := Host.absf main_arg15
  let main_cst_28 : FVec F S_ .f32 := constant S_ .f32 0x7F800000#32
  let main_v75 : FVec F S5x32 .f32 := broadcastInDim S5x32 ![] bcast_S_S5x32 main_cst_28
  let main_v76 : IVec S5x32 1 := cmpf .olt main_v74 main_v75
  let main_c_29 : IVec S_ 1 := constantI S_ 1 1#1
  let main_v77 : IVec S_ 1 := (fun x v => Host.reduce IntOp.andi x v reducesTo_S5x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S5x32 .f32 := Host.absf main_arg11
  let main_cst_20 : FVec F S_ .f32 := constant S_ .f32 0x7F800000#32
  let main_v55 : FVec F S5x32 .f32 := broadcastInDim S5x32 ![] bcast_S_S5x32 main_cst_20
  let main_v56 : IVec S5x32 1 := cmpf .olt main_v54 main_v55
  let main_c_21 : IVec S_ 1 := constantI S_ 1 1#1
  let main_v57 : IVec S_ 1 := (fun x v => Host.reduce IntOp.andi x v reducesTo_S5x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S1 .f32) (main_arg2 : FVec F S512x512x5 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S512x512x5 .f32 := Host.absf main_arg2
  let main_cst_2 : FVec F S_ .f32 := constant S_ .f32 0x7F800000#32
  let main_v10 : FVec F S512x512x5 .f32 := broadcastInDim S512x512x5 ![] bcast_S_S512x512x5 main_cst_2
  let main_v11 : IVec S512x512x5 1 := cmpf .olt main_v9 main_v10
  let main_c_3 : IVec S_ 1 := constantI S_ 1 1#1
  let main_v12 : IVec S_ 1 := (fun x v => Host.reduce IntOp.andi x v reducesTo_S512x512x5_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩
abbrev S512x512x1 : Shape := ⟨3, ![512, 512, 1]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S16384x1 : Shape := ⟨2, ![16384, 1]⟩
abbrev S16384x5 : Shape := ⟨2, ![16384, 5]⟩
abbrev S16384x32 : Shape := ⟨2, ![16384, 32]⟩
abbrev S1x32 : Shape := ⟨2, ![1, 32]⟩
abbrev S1x1 : Shape := ⟨2, ![1, 1]⟩

abbrev nBuf : Space → Nat
  | .hbm => 105
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S1, .f32⟩
  | .hbm, ⟨2, _⟩ => ⟨S512x512x5, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S5x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S5x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S_, .f32⟩
  | .hbm, ⟨20, _⟩ => ⟨S512x512x1, .f32⟩
  | .hbm, ⟨21, _⟩ => ⟨S512x512, .f32⟩
  | .hbm, ⟨22, _⟩ => ⟨S512x512x1, .f32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512x1, .f32⟩
  | .hbm, ⟨31, _⟩ => ⟨S512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512x1, .f32⟩
  | .hbm, ⟨39, _⟩ => ⟨S512x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512x1, .f32⟩
  | .hbm, ⟨47, _⟩ => ⟨S512x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512x512, .bf16⟩
  | .hbm, ⟨57, _⟩ => ⟨S512x512, .bf16⟩
  | .hbm, ⟨58, _⟩ => ⟨S512x512, .bf16⟩
  | .hbm, ⟨59, _⟩ => ⟨S512x512, .bf16⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S16384x512, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x5, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x5, .f32⟩
  | .hbm, ⟨77, _⟩ => ⟨S16384x32, .f32⟩
  | .hbm, ⟨78, _⟩ => ⟨S1x32, .f32⟩
  | .hbm, ⟨79, _⟩ => ⟨S16384x32, .f32⟩
  | .hbm, ⟨80, _⟩ => ⟨S16384x32, .f32⟩
  | .hbm, ⟨81, _⟩ => ⟨S_, .f32⟩
  | .hbm, ⟨82, _⟩ => ⟨S16384x32, .f32⟩
  | .hbm, ⟨83, _⟩ => ⟨S16384x32, .f32⟩
  | .hbm, ⟨84, _⟩ => ⟨S16384x1, .f32⟩
  | .hbm, ⟨85, _⟩ => ⟨S1x1, .f32⟩
  | .hbm, ⟨86, _⟩ => ⟨S16384x1, .f32⟩
  | .hbm, ⟨87, _⟩ => ⟨S16384x1, .f32⟩
  | .hbm, ⟨88, _⟩ => ⟨S16384x32, .f32⟩
  | .hbm, ⟨89, _⟩ => ⟨S1x32, .f32⟩
  | .hbm, ⟨90, _⟩ => ⟨S16384x32, .f32⟩
  | .hbm, ⟨91, _⟩ => ⟨S16384x32, .f32⟩
  | .hbm, ⟨92, _⟩ => ⟨S_, .f32⟩
  | .hbm, ⟨93, _⟩ => ⟨S16384x32, .f32⟩
  | .hbm, ⟨94, _⟩ => ⟨S16384x32, .f32⟩
  | .hbm, ⟨95, _⟩ => ⟨S16384x1, .f32⟩
  | .hbm, ⟨96, _⟩ => ⟨S1x1, .f32⟩
  | .hbm, ⟨97, _⟩ => ⟨S16384x1, .f32⟩
  | .hbm, ⟨98, _⟩ => ⟨S16384x1, .f32⟩
  | .hbm, ⟨99, _⟩ => ⟨S_, .i32⟩
  | .hbm, ⟨100, _⟩ => ⟨S1, .i32⟩
  | .hbm, ⟨101, _⟩ => ⟨S16384x512, .f32⟩
  | .hbm, ⟨102, _⟩ => ⟨S_, .i32⟩
  | .hbm, ⟨103, _⟩ => ⟨S1, .i32⟩
  | .hbm, ⟨104, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c : Ref sig .tc := ⟨.hbm, 99, rfl⟩
abbrev main_v72 : Ref sig .tc := ⟨.hbm, 100, rfl⟩
abbrev main_v73 : Ref sig .tc := ⟨.hbm, 101, rfl⟩
abbrev main_c_3 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1_S_ : S1.ShapeCasts S_
  slices_S512x512x5_S512x512x1_0_0_0 : S512x512x5.Slices ![0, 0, 0] S512x512x1
  shapeCasts_S512x512x1_S512x512 : S512x512x1.ShapeCasts S512x512
  slices_S512x512x5_S512x512x1_0_0_1 : S512x512x5.Slices ![0, 0, 1] S512x512x1
  bcast_S_S512x512 : S_.BroadcastsInDim S512x512 (![] : Fin 0 → Fin S512x512.rank)
  slices_S512x512x5_S512x512x1_0_0_2 : S512x512x5.Slices ![0, 0, 2] S512x512x1
  slices_S512x512x5_S512x512x1_0_0_3 : S512x512x5.Slices ![0, 0, 3] S512x512x1
  slices_S512x512x5_S512x512x1_0_0_4 : S512x512x5.Slices ![0, 0, 4] S512x512x1
  transposes_S512x512_S512x512_1_0 : S512x512.Transposes [1, 0] S512x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  shapeCasts_S1024x1_S1024x1 : S1024x1.ShapeCasts S1024x1
  broadcasts_S1024x1_S1024x512 : S1024x1.Broadcasts S1024x512
  slices_S16384x512_S16384x1_0_0 : S16384x512.Slices ![0, 0] S16384x1
  slices_S16384x512_S16384x1_0_1 : S16384x512.Slices ![0, 1] S16384x1
  concatenates_S16384x1_S16384x1_S16384x1_S16384x1_S16384x1_S16384x5_d1 : Shape.Concatenates [S16384x1, S16384x1, S16384x1, S16384x1, S16384x1] S16384x5 1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S1 : S_.BroadcastsInDim S1 (![] : Fin 0 → Fin S1.rank)
  dot_S1024x512_S512x512_S1024x512_1_0_0_1_n_n_wf : DotDims.WF S1024x512 S512x512 S1024x512 [1] [0] [0] [1] [] []
  dot_S16384x5_S5x32_S16384x32_1_0_0_1_n_n_wf : DotDims.WF S16384x5 S5x32 S16384x32 [1] [0] [0] [1] [] []
  dot_S16384x32_S32x1_S16384x1_1_0_0_1_n_n_wf : DotDims.WF S16384x32 S32x1 S16384x1 [1] [0] [0] [1] [] []
  scatter_S16384x512_S1_S16384x1_01_n_1_0_wf : ScatterDims.WF S16384x512 S1 S16384x1 [0, 1] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S16384x5_S5x32_S16384x32_1_0_0_1_n_n : DotDims S16384x5 S5x32 S16384x32 where
  lhsContracting := [1]
  rhsContracting := [0]
  lhsNonContracting := [0]
  rhsNonContracting := [1]
  lhsBatch := []
  rhsBatch := []
  wf := dot_S16384x5_S5x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def scatter_S16384x512_S1_S16384x1_01_n_1_0 : ScatterDims S16384x512 S1 S16384x1 where
  updateWindowDims := [0, 1]
  insertedWindowDims := []
  scatterDimsToOperandDims := [1]
  indexVectorDim := 0
  wf := scatter_S16384x512_S1_S16384x1_01_n_1_0_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩
abbrev S512x512x1 : Shape := ⟨3, ![512, 512, 1]⟩
abbrev S1x512 : Shape := ⟨2, ![1, 512]⟩
abbrev S16384 : Shape := ⟨1, ![16384]⟩
abbrev S16384x1 : Shape := ⟨2, ![16384, 1]⟩
abbrev S16384x5 : Shape := ⟨2, ![16384, 5]⟩
abbrev S16384x32 : Shape := ⟨2, ![16384, 32]⟩
abbrev S1x32 : Shape := ⟨2, ![1, 32]⟩
abbrev S1x1 : Shape := ⟨2, ![1, 1]⟩
abbrev S16384x510 : Shape := ⟨2, ![16384, 510]⟩

abbrev nBuf : Space → Nat
  | .hbm => 131
  | .vmem => 0
  | .smem => 0
  | _ => 0

abbrev hbmTy0_0 (i : Nat) : BufTy := match i % 128 with
  | 0 => ⟨S16384x512, .f32⟩
  | 1 => ⟨S1, .f32⟩
  | 2 => ⟨S512x512x5, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S5x32, .f32⟩
  | 12 => ⟨S32, .f32⟩
  | 13 => ⟨S32x1, .f32⟩
  | 14 => ⟨S1, .f32⟩
  | 15 => ⟨S5x32, .f32⟩
  | 16 => ⟨S32, .f32⟩
  | 17 => ⟨S32x1, .f32⟩
  | 18 => ⟨S1, .f32⟩
  | 19 => ⟨S_, .f32⟩
  | 20 => ⟨S512x512x1, .f32⟩
  | 21 => ⟨S512x512, .f32⟩
  | 22 => ⟨S512x512x1, .f32⟩
  | 23 => ⟨S512x512, .f32⟩
  | 24 => ⟨S_, .f32⟩
  | 25 => ⟨S_, .f32⟩
  | 26 => ⟨S_, .f32⟩
  | 27 => ⟨S512x512, .f32⟩
  | 28 => ⟨S512x512, .f32⟩
  | 29 => ⟨S512x512, .f32⟩
  | 30 => ⟨S512x512x1, .f32⟩
  | 31 => ⟨S512x512, .f32⟩
  | 32 => ⟨S_, .f32⟩
  | 33 => ⟨S_, .f32⟩
  | 34 => ⟨S_, .f32⟩
  | 35 => ⟨S512x512, .f32⟩
  | 36 => ⟨S512x512, .f32⟩
  | 37 => ⟨S512x512, .f32⟩
  | 38 => ⟨S512x512x1, .f32⟩
  | 39 => ⟨S512x512, .f32⟩
  | 40 => ⟨S_, .f32⟩
  | 41 => ⟨S_, .f32⟩
  | 42 => ⟨S_, .f32⟩
  | 43 => ⟨S512x512, .f32⟩
  | 44 => ⟨S512x512, .f32⟩
  | 45 => ⟨S512x512, .f32⟩
  | 46 => ⟨S512x512x1, .f32⟩
  | 47 => ⟨S512x512, .f32⟩
  | 48 => ⟨S_, .f32⟩
  | 49 => ⟨S_, .f32⟩
  | 50 => ⟨S_, .f32⟩
  | 51 => ⟨S512x512, .f32⟩
  | 52 => ⟨S512x512, .f32⟩
  | 53 => ⟨S512x512, .f32⟩
  | 54 => ⟨S16384x512, .f32⟩
  | 55 => ⟨S16384x512, .f32⟩
  | 56 => ⟨S1x512, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S1x512, .f32⟩
  | 64 => ⟨S16384x512, .f32⟩
  | 65 => ⟨S16384x512, .f32⟩
  | 66 => ⟨S16384x512, .f32⟩
  | 67 => ⟨S1x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S1x512, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x512, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S16384x512, .f32⟩
  | 91 => ⟨S16384x512, .f32⟩
  | 92 => ⟨S16384x1, .f32⟩
  | 93 => ⟨S16384x1, .f32⟩
  | 94 => ⟨S16384x1, .f32⟩
  | 95 => ⟨S16384x1, .f32⟩
  | 96 => ⟨S16384x1, .f32⟩
  | 97 => ⟨S16384x1, .f32⟩
  | 98 => ⟨S16384x5, .f32⟩
  | 99 => ⟨S16384x1, .f32⟩
  | 100 => ⟨S16384x1, .f32⟩
  | 101 => ⟨S16384x1, .f32⟩
  | 102 => ⟨S16384x1, .f32⟩
  | 103 => ⟨S16384x5, .f32⟩
  | 104 => ⟨S16384x32, .f32⟩
  | 105 => ⟨S1x32, .f32⟩
  | 106 => ⟨S16384x32, .f32⟩
  | 107 => ⟨S16384x32, .f32⟩
  | 108 => ⟨S_, .f32⟩
  | 109 => ⟨S16384x32, .f32⟩
  | 110 => ⟨S16384x32, .f32⟩
  | 111 => ⟨S16384x1, .f32⟩
  | 112 => ⟨S1x1, .f32⟩
  | 113 => ⟨S16384x1, .f32⟩
  | 114 => ⟨S16384x1, .f32⟩
  | 115 => ⟨S16384x32, .f32⟩
  | 116 => ⟨S1x32, .f32⟩
  | 117 => ⟨S16384x32, .f32⟩
  | 118 => ⟨S16384x32, .f32⟩
  | 119 => ⟨S_, .f32⟩
  | 120 => ⟨S16384x32, .f32⟩
  | 121 => ⟨S16384x32, .f32⟩
  | 122 => ⟨S16384x1, .f32⟩
  | 123 => ⟨S1x1, .f32⟩
  | 124 => ⟨S16384x1, .f32⟩
  | 125 => ⟨S16384x1, .f32⟩
  | 126 => ⟨S_, .f32⟩
  | 127 => ⟨S16384x510, .f32⟩
  | _ => ⟨S16384x512, .f32⟩

abbrev hbmTy0_1 (i : Nat) : BufTy := match i % 128 with
  | 0 => ⟨S16384x512, .f32⟩
  | 1 => ⟨S16384x512, .f32⟩
  | 2 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call0_cst : Ref sig .tc := ⟨.hbm, 59, rfl⟩
abbrev main_call0_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call3_cst : Ref sig .tc := ⟨.hbm, 119, rfl⟩
abbrev main_call3_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_7 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  shapeCasts_S1_S_ : S1.ShapeCasts S_
  slices_S512x512x5_S512x512x1_0_0_0 : S512x512x5.Slices ![0, 0, 0] S512x512x1
  shapeCasts_S512x512x1_S512x512 : S512x512x1.ShapeCasts S512x512
  slices_S512x512x5_S512x512x1_0_0_1 : S512x512x5.Slices ![0, 0, 1] S512x512x1
  bcast_S_S512x512 : S_.BroadcastsInDim S512x512 (![] : Fin 0 → Fin S512x512.rank)
  slices_S512x512x5_S512x512x1_0_0_2 : S512x512x5.Slices ![0, 0, 2] S512x512x1
  slices_S512x512x5_S512x512x1_0_0_3 : S512x512x5.Slices ![0, 0, 3] S512x512x1
  slices_S512x512x5_S512x512x1_0_0_4 : S512x512x5.Slices ![0, 0, 4] S512x512x1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  slices_S16384x512_S16384x1_0_0 : S16384x512.Slices ![0, 0] S16384x1
  slices_S16384x512_S16384x1_0_1 : S16384x512.Slices ![0, 1] S16384x1
  concatenates_S16384x1_S16384x1_S16384x1_S16384x1_S16384x1_S16384x5_d1 : Shape.Concatenates [S16384x1, S16384x1, S16384x1, S16384x1, S16384x1] S16384x5 1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x510 : S_.BroadcastsInDim S16384x510 (![] : Fin 0 → Fin S16384x510.rank)
  concatenates_S16384x1_S16384x1_S16384x510_S16384x512_d1 : Shape.Concatenates [S16384x1, S16384x1, S16384x510] S16384x512 1
  dot_S16384x512_S512x512_S16384x512_1_1_0_0_n_n_wf : DotDims.WF S16384x512 S512x512 S16384x512 [1] [1] [0] [0] [] []
  dot_S16384x512_S512x512_S16384x512_1_0_0_1_n_n_wf : DotDims.WF S16384x512 S512x512 S16384x512 [1] [0] [0] [1] [] []
  dot_S16384x5_S5x32_S16384x32_1_0_0_1_n_n_wf : DotDims.WF S16384x5 S5x32 S16384x32 [1] [0] [0] [1] [] []
  dot_S16384x32_S32x1_S16384x1_1_0_0_1_n_n_wf : DotDims.WF S16384x32 S32x1 S16384x1 [1] [0] [0] [1] [] []

variable [Facts₀]

def dot_S16384x512_S512x512_S16384x512_1_1_0_0_n_n : DotDims S16384x512 S512x512 S16384x512 where
  lhsContracting := [1]
  rhsContracting := [1]
  lhsNonContracting := [0]
  rhsNonContracting := [0]
  lhsBatch := []
  rhsBatch := []
  wf := dot_S16384x512_S512x512_S16384x512_1_1_0_0_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x5_S5x32_S16384x32_1_0_0_1_n_n : DotDims S16384x5 S5x32 S16384x32 where
  lhsContracting := [1]
  rhsContracting := [0]
  lhsNonContracting := [0]
  rhsNonContracting := [1]
  lhsBatch := []
  rhsBatch := []
  wf := dot_S16384x5_S5x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KernelFrameDefs.lean ====
/-
  The data of Kernel's frame and value proofs, generic in the float instance.

  @main is: a stretch of host operations (the seasonal matrix, its transpose, the bf16 casts of the
  weights, the biases as rows), ONE kernel region on a grid of 16 points, and five more host stretches
  (the two small networks on columns 0 and 1 of the input, and the two column scatter-adds).
  `V0` is what each buffer holds when the region is entered; `iblk` is a window's block at a grid
  point read off the array the region finds; `outBlock` is what the body's one store leaves in the
  output window's buffer, as a function of the ten input blocks; `dats` says that the body leaves every
  input block in place and the output block at `outBlock` of the inputs.
-/
import proofs.«104341_j39754217292306_1_alg».proof.Proof.Gen.Kernel.Launch
import proofs.«104341_j39754217292306_1_alg».proof.Proof.Gen.Kernel.Skeleton
import proofs.«104341_j39754217292306_1_alg».proof.Proof.Gen.Kernel.Points
import Idealize.ShloMosaic.Lib.Pipeline.FrameBody
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch contents after the host operations
    that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host stretches that follow the region, in order. -/
abbrev tailOps : List (List (HloOp τ sig (Elt F))) := [hostOps1, hostOps1_1, hostOps1_2, hostOps1_3, hostOps1_4]

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 1024 × 512 buffer, of a 512 × 512 buffer and of a 1 × 512 buffer: the only rectangles the body
    loads or stores through. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the ten input blocks: the body's one store, whole. -/
def outBlock (x0 : Vec F S1024x512 .f32) (x1 : Vec F S512x512 .bf16) (x2 : Vec F S512x512 .bf16) (x3 : Vec F S1x512 .f32)
    (x4 : Vec F S512x512 .bf16) (x5 : Vec F S1x512 .f32) (x6 : Vec F S512x512 .bf16) (x7 : Vec F S1x512 .f32)
    (x8 : Vec F S512x512 .bf16) (x9 : Vec F S1x512 .f32) : Vec F S1024x512 .f32 :=
  View.canon [⟨rX, k0_pay1 (k0_pay3 (View.ld x0 rX) (View.ld x1 rW))
    (k0_pay4 (View.ld x0 rX) (View.ld x2 rW) (View.ld x3 rB) (View.ld x4 rW) (View.ld x5 rB))
    (k0_pay5 (View.ld x0 rX) (View.ld x6 rW) (View.ld x7 rB)) (Scalar.ofBits .f32 0x00000000#32) (View.ld x8 rW) (View.ld x9 rB)⟩]

/-- The output block at point `t` from the input blocks at `t`. -/
def outAt (c : Dev nD) (t : Fin cfg0.N) : Vec F S1024x512 .f32 :=
  outBlock (iblk m c 0 t) (iblk m c 1 t) (iblk m c 2 t) (iblk m c 3 t) (iblk m c 4 t) (iblk m c 5 t) (iblk m c 6 t)
    (iblk m c 7 t) (iblk m c 8 t) (iblk m c 9 t)

/-- The pipeline's proof data on core `c`: the arrays as the region finds them; after the body at point `t` every
    input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

end Cert.Kernel.Fr

end
-- ==== Proof.KernelFrameHost.lean ====
/-
  Kernel's @main around its one kernel region.

  The host operations before the region write only their own result buffers, so the region finds every
  argument array as launched (`V_main_argK`); the five host stretches after the region touch only unscoped
  TensorCore buffers, allocate nothing, and write only their own results — none of which is an array the
  pipeline stages or an argument — so the arguments also END as launched (`W_main_argK`), and @main reduces
  to the region continued by those stretches (`hmain`).
-/
import proofs.«104341_j39754217292306_1_alg».proof.Proof.KernelFrameDefs

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## Nothing is allocated by a host operation -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## @main is the prefix, the region, the five later stretches -/

/-- @main reduces to the region entered at `V` and continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 4000000 in
/-- Each later operation writes its own result buffer only, and that is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-! ## The argument arrays at the region's entry and at the end -/

set_option maxHeartbeats 1000000 in
/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

set_option maxHeartbeats 1000000 in
/-- No host operation after the region writes `main_arg1`, and the pipeline does not stage it. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No host operation after the region writes `main_arg2`, and the pipeline does not stage it. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 1000000 in
/-- No host operation after the region writes `main_arg3`, and the pipeline does not stage it. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 1000000 in
/-- No host operation after the region writes `main_arg4`, and the pipeline does not stage it. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 1000000 in
/-- No host operation after the region writes `main_arg5`, and the pipeline does not stage it. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- No host operation after the region writes `main_arg6`, and the pipeline does not stage it. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 1000000 in
/-- No host operation after the region writes `main_arg7`, and the pipeline does not stage it. -/
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg7 (by exact (by decide : ∀ w, Pipeline.arrRef spec0 w ≠ main_arg7))]
  exact V_main_arg7 m c
set_option maxHeartbeats 1000000 in
/-- No host operation after the region writes `main_arg8`, and the pipeline does not stage it. -/
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 1000000 in
/-- No host operation after the region writes `main_arg9`, and the pipeline does not stage it. -/
theorem W_main_arg9 (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_forall_not_mem (b := Proc.devRef .tc main_arg9) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg9 (by exact (by decide : ∀ w, Pipeline.arrRef spec0 w ≠ main_arg9))]
  exact V_main_arg9 m c
set_option maxHeartbeats 1000000 in
/-- No host operation after the region writes `main_arg10`, and the pipeline does not stage it. -/
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_forall_not_mem (b := Proc.devRef .tc main_arg10) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 1000000 in
/-- No host operation after the region writes `main_arg11`, and the pipeline does not stage it. -/
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_forall_not_mem (b := Proc.devRef .tc main_arg11) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg11 (by exact (by decide : ∀ w, Pipeline.arrRef spec0 w ≠ main_arg11))]
  exact V_main_arg11 m c
set_option maxHeartbeats 1000000 in
/-- No host operation after the region writes `main_arg12`, and the pipeline does not stage it. -/
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_forall_not_mem (b := Proc.devRef .tc main_arg12) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 1000000 in
/-- No host operation after the region writes `main_arg13`, and the pipeline does not stage it. -/
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_forall_not_mem (b := Proc.devRef .tc main_arg13) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 1000000 in
/-- No host operation after the region writes `main_arg14`, and the pipeline does not stage it. -/
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_forall_not_mem (b := Proc.devRef .tc main_arg14) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 1000000 in
/-- No host operation after the region writes `main_arg15`, and the pipeline does not stage it. -/
theorem W_main_arg15 (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_forall_not_mem (b := Proc.devRef .tc main_arg15) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 1000000 in
/-- No host operation after the region writes `main_arg16`, and the pipeline does not stage it. -/
theorem W_main_arg16 (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_forall_not_mem (b := Proc.devRef .tc main_arg16) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg16 (by exact (by decide : ∀ w, Pipeline.arrRef spec0 w ≠ main_arg16))]
  exact V_main_arg16 m c
set_option maxHeartbeats 1000000 in
/-- No host operation after the region writes `main_arg17`, and the pipeline does not stage it. -/
theorem W_main_arg17 (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 1000000 in
/-- No host operation after the region writes `main_arg18`, and the pipeline does not stage it. -/
theorem W_main_arg18 (dats : (p : Fin 1) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg18 (by exact (by decide : ∀ w, Pipeline.arrRef spec0 w ≠ main_arg18))]
  exact V_main_arg18 m c

end Cert.Kernel.Fr

end
-- ==== Proof.KernelFrame.lean ====
/-
  The frame of Kernel: every weakly fair execution of @main ends, nothing faults, and the nineteen
  argument arrays end as launched. @main is host operations, one kernel region on a static grid of
  sixteen points with eleven windows (ten inputs, the last the output), then five host stretches.

  The body loads each input window's whole buffer, loads the output window's whole buffer (the value
  is not used) and stores the whole output buffer once: it leaves every input block in place and the
  output buffer at `outBlock` of the ten input blocks. The run is the library's launch theorem around
  the region; the argument arrays are no window's array and no host operation writes them.
-/
import proofs.«104341_j39754217292306_1_alg».proof.Proof.KernelFrameDefs
import proofs.«104341_j39754217292306_1_alg».proof.Proof.KernelFrameHost
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a point -/
/-- Each input window's current staging buffer holds its block at every point, fetched there or not: an input
    not fetched at a point has the block index of the point before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
/-! ## What the body leaves in the output window's buffer -/

/-- The body's one store is through the whole buffer, so it covers it. -/
theorem cover0_10 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 4000000 in
/-- The kernel body on whole staging memrefs, the inputs' at read contents `x0 … x9` and the output's at anything, runs
    to the continuation holding the inputs' as they were and the output's at `outBlock` of the inputs': the body loads
    every input whole, loads the output's buffer (the value unused) and stores the output's buffer whole once, so what
    the output's buffer held before is read by no payload and left nowhere. -/
theorem sound_kernel (c : Dev nD) (E : Set ℕ) (i : grid0.Coords) (arg1 : Memref sig .tc .vmem S1024x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1024x512 .f32) (harg11 : arg11.IsWhole)
    (x0 : Vec F S1024x512 .f32) (x1 : Vec F S512x512 .bf16) (x2 : Vec F S512x512 .bf16) (x3 : Vec F S1x512 .f32) (x4 : Vec F S512x512 .bf16) (x5 : Vec F S1x512 .f32) (x6 : Vec F S512x512 .bf16) (x7 : Vec F S1x512 .f32) (x8 : Vec F S512x512 .bf16) (x9 : Vec F S1x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (outBlock x0 x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  unfold outBlock
  exact View.read_writes_eq_canon _ _ _ (cover0_10 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- What a final state of the frame run keeps: the first argument array is the first window's array, an input's, never
    written back, and found as launched; the other eighteen are no window's array, and no host operation before or after
    the region writes them. -/
theorem kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c),
   ((h c).2 main_arg13 (Pipeline.mem_restRefs_of main_arg13 (by decide) (by decide))).trans (W_main_arg13 m (dats m) c),
   ((h c).2 main_arg14 (Pipeline.mem_restRefs_of main_arg14 (by decide) (by decide))).trans (W_main_arg14 m (dats m) c),
   ((h c).2 main_arg15 (Pipeline.mem_restRefs_of main_arg15 (by decide) (by decide))).trans (W_main_arg15 m (dats m) c),
   ((h c).2 main_arg16 (Pipeline.mem_restRefs_of main_arg16 (by decide) (by decide))).trans (W_main_arg16 m (dats m) c),
   ((h c).2 main_arg17 (Pipeline.mem_restRefs_of main_arg17 (by decide) (by decide))).trans (W_main_arg17 m (dats m) c),
   ((h c).2 main_arg18 (Pipeline.mem_restRefs_of main_arg18 (by decide) (by decide))).trans (W_main_arg18 m (dats m) c)⟩

/-- THE FRAME: every weakly fair execution of @main terminates, and the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.Kernel.Fr

end
-- ==== Proof.KernelIdealFrameDefs.lean ====
/-
  The data of KernelIdeal's frame and value proofs, generic in the float instance.

  @main is: a stretch of host operations (the seasonal matrix, its transpose, the bf16 casts of the
  weights, the biases as rows), ONE kernel region on a grid of 16 points, and five more host stretches
  (the two small networks on columns 0 and 1 of the input, and the two column scatter-adds).
  `V0` is what each buffer holds when the region is entered; `iblk` is a window's block at a grid
  point read off the array the region finds; `outBlock` is what the body's one store leaves in the
  output window's buffer, as a function of the ten input blocks; `dats` says that the body leaves every
  input block in place and the output block at `outBlock` of the inputs.
-/
import proofs.«104341_j39754217292306_1_alg».proof.Proof.Gen.KernelIdeal.Launch
import proofs.«104341_j39754217292306_1_alg».proof.Proof.Gen.KernelIdeal.Skeleton
import proofs.«104341_j39754217292306_1_alg».proof.Proof.Gen.KernelIdeal.Points
import Idealize.ShloMosaic.Lib.Pipeline.FrameBody
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch contents after the host operations
    that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host stretches that follow the region, in order. -/
abbrev tailOps : List (List (HloOp τ sig (Elt F))) := [hostOps1, hostOps1_1, hostOps1_2, hostOps1_3, hostOps1_4]

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 1024 × 512 buffer, of a 512 × 512 buffer and of a 1 × 512 buffer: the only rectangles the body
    loads or stores through. -/
abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the ten input blocks: the body's one store, whole. -/
def outBlock (x0 : Vec F S1024x512 .f32) (x1 : Vec F S512x512 .bf16) (x2 : Vec F S512x512 .bf16) (x3 : Vec F S1x512 .f32)
    (x4 : Vec F S512x512 .bf16) (x5 : Vec F S1x512 .f32) (x6 : Vec F S512x512 .bf16) (x7 : Vec F S1x512 .f32)
    (x8 : Vec F S512x512 .bf16) (x9 : Vec F S1x512 .f32) : Vec F S1024x512 .f32 :=
  View.canon [⟨rX, k0_pay1 (k0_pay3 (View.ld x0 rX) (View.ld x1 rW))
    (k0_pay4 (View.ld x0 rX) (View.ld x2 rW) (View.ld x3 rB) (View.ld x4 rW) (View.ld x5 rB))
    (k0_pay5 (View.ld x0 rX) (View.ld x6 rW) (View.ld x7 rB)) (Scalar.ofBits .f32 0x00000000#32) (View.ld x8 rW) (View.ld x9 rB)⟩]

/-- The output block at point `t` from the input blocks at `t`. -/
def outAt (c : Dev nD) (t : Fin cfg0.N) : Vec F S1024x512 .f32 :=
  outBlock (iblk m c 0 t) (iblk m c 1 t) (iblk m c 2 t) (iblk m c 3 t) (iblk m c 4 t) (iblk m c 5 t) (iblk m c 6 t)
    (iblk m c 7 t) (iblk m c 8 t) (iblk m c 9 t)

/-- The pipeline's proof data on core `c`: the arrays as the region finds them; after the body at point `t` every
    input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

end Cert.KernelIdeal.Fr

end
-- ==== Proof.KernelIdealFrameHost.lean ====
/-
  KernelIdeal's @main around its one kernel region.

  The host operations before the region write only their own result buffers, so the region finds every
  argument array as launched (`V_main_argK`); the five host stretches after the region touch only unscoped
  TensorCore buffers, allocate nothing, and write only their own results — none of which is an array the
  pipeline stages or an argument — so the arguments also END as launched (`W_main_argK`), and @main reduces
  to the region continued by those stretches (`hmain`).
-/
import proofs.«104341_j39754217292306_1_alg».proof.Proof.KernelIdealFrameDefs

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## Nothing is allocated by a host operation -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## @main is the prefix, the region, the five later stretches -/

/-- @main reduces to the region entered at `V` and continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 4000000 in
/-- Each later operation writes its own result buffer only, and that is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-! ## The argument arrays at the region's entry and at the end -/

set_option maxHeartbeats 1000000 in
/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
set_option maxHeartbeats 1000000 in
/-- No host operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

set_option maxHeartbeats 1000000 in
/-- No host operation after the region writes `main_arg1`, and the pipeline does not stage it. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No host operation after the region writes `main_arg2`, and the pipeline does not stage it. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 1000000 in
/-- No host operation after the region writes `main_arg3`, and the pipeline does not stage it. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 1000000 in
/-- No host operation after the region writes `main_arg4`, and the pipeline does not stage it. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 1000000 in
/-- No host operation after the region writes `main_arg5`, and the pipeline does not stage it. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- No host operation after the region writes `main_arg6`, and the pipeline does not stage it. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 1000000 in
/-- No host operation after the region writes `main_arg7`, and the pipeline does not stage it. -/
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg7 (by exact (by decide : ∀ w, Pipeline.arrRef spec0 w ≠ main_arg7))]
  exact V_main_arg7 m c
set_option maxHeartbeats 1000000 in
/-- No host operation after the region writes `main_arg8`, and the pipeline does not stage it. -/
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 1000000 in
/-- No host operation after the region writes `main_arg9`, and the pipeline does not stage it. -/
theorem W_main_arg9 (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_forall_not_mem (b := Proc.devRef .tc main_arg9) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg9 (by exact (by decide : ∀ w, Pipeline.arrRef spec0 w ≠ main_arg9))]
  exact V_main_arg9 m c
set_option maxHeartbeats 1000000 in
/-- No host operation after the region writes `main_arg10`, and the pipeline does not stage it. -/
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_forall_not_mem (b := Proc.devRef .tc main_arg10) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 1000000 in
/-- No host operation after the region writes `main_arg11`, and the pipeline does not stage it. -/
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_forall_not_mem (b := Proc.devRef .tc main_arg11) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg11 (by exact (by decide : ∀ w, Pipeline.arrRef spec0 w ≠ main_arg11))]
  exact V_main_arg11 m c
set_option maxHeartbeats 1000000 in
/-- No host operation after the region writes `main_arg12`, and the pipeline does not stage it. -/
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_forall_not_mem (b := Proc.devRef .tc main_arg12) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 1000000 in
/-- No host operation after the region writes `main_arg13`, and the pipeline does not stage it. -/
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_forall_not_mem (b := Proc.devRef .tc main_arg13) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 1000000 in
/-- No host operation after the region writes `main_arg14`, and the pipeline does not stage it. -/
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_forall_not_mem (b := Proc.devRef .tc main_arg14) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 1000000 in
/-- No host operation after the region writes `main_arg15`, and the pipeline does not stage it. -/
theorem W_main_arg15 (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_forall_not_mem (b := Proc.devRef .tc main_arg15) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 1000000 in
/-- No host operation after the region writes `main_arg16`, and the pipeline does not stage it. -/
theorem W_main_arg16 (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_forall_not_mem (b := Proc.devRef .tc main_arg16) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg16 (by exact (by decide : ∀ w, Pipeline.arrRef spec0 w ≠ main_arg16))]
  exact V_main_arg16 m c
set_option maxHeartbeats 1000000 in
/-- No host operation after the region writes `main_arg17`, and the pipeline does not stage it. -/
theorem W_main_arg17 (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 1000000 in
/-- No host operation after the region writes `main_arg18`, and the pipeline does not stage it. -/
theorem W_main_arg18 (dats : (p : Fin 1) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
    simp only [hostOps0, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))),
    Pipeline.withArrays_of_ne _ c (V0 m c) _ main_arg18 (by exact (by decide : ∀ w, Pipeline.arrRef spec0 w ≠ main_arg18))]
  exact V_main_arg18 m c

end Cert.KernelIdeal.Fr

end
-- ==== Proof.KernelIdealFrame.lean ====
/-
  The frame of KernelIdeal: every weakly fair execution of @main ends, nothing faults, and the nineteen
  argument arrays end as launched. @main is host operations, one kernel region on a static grid of
  sixteen points with eleven windows (ten inputs, the last the output), then five host stretches.

  The body loads each input window's whole buffer, loads the output window's whole buffer (the value
  is not used) and stores the whole output buffer once: it leaves every input block in place and the
  output buffer at `outBlock` of the ten input blocks. The run is the library's launch theorem around
  the region; the argument arrays are no window's array and no host operation writes them.
-/
import proofs.«104341_j39754217292306_1_alg».proof.Proof.KernelIdealFrameDefs
import proofs.«104341_j39754217292306_1_alg».proof.Proof.KernelIdealFrameHost
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a point -/
/-- Each input window's current staging buffer holds its block at every point, fetched there or not: an input
    not fetched at a point has the block index of the point before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
/-! ## What the body leaves in the output window's buffer -/

/-- The body's one store is through the whole buffer, so it covers it. -/
theorem cover0_10 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 4000000 in
/-- The kernel body on whole staging memrefs, the inputs' at read contents `x0 … x9` and the output's at anything, runs
    to the continuation holding the inputs' as they were and the output's at `outBlock` of the inputs': the body loads
    every input whole, loads the output's buffer (the value unused) and stores the output's buffer whole once, so what
    the output's buffer held before is read by no payload and left nowhere. -/
theorem sound_kernel (c : Dev nD) (E : Set ℕ) (i : grid0.Coords) (arg1 : Memref sig .tc .vmem S1024x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1024x512 .f32) (harg11 : arg11.IsWhole)
    (x0 : Vec F S1024x512 .f32) (x1 : Vec F S512x512 .bf16) (x2 : Vec F S512x512 .bf16) (x3 : Vec F S1x512 .f32) (x4 : Vec F S512x512 .bf16) (x5 : Vec F S1x512 .f32) (x6 : Vec F S512x512 .bf16) (x7 : Vec F S1x512 .f32) (x8 : Vec F S512x512 .bf16) (x9 : Vec F S1x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (outBlock x0 x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  unfold outBlock
  exact View.read_writes_eq_canon _ _ _ (cover0_10 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- What a final state of the frame run keeps: the first argument array is the first window's array, an input's, never
    written back, and found as launched; the other eighteen are no window's array, and no host operation before or after
    the region writes them. -/
theorem kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c),
   ((h c).2 main_arg13 (Pipeline.mem_restRefs_of main_arg13 (by decide) (by decide))).trans (W_main_arg13 m (dats m) c),
   ((h c).2 main_arg14 (Pipeline.mem_restRefs_of main_arg14 (by decide) (by decide))).trans (W_main_arg14 m (dats m) c),
   ((h c).2 main_arg15 (Pipeline.mem_restRefs_of main_arg15 (by decide) (by decide))).trans (W_main_arg15 m (dats m) c),
   ((h c).2 main_arg16 (Pipeline.mem_restRefs_of main_arg16 (by decide) (by decide))).trans (W_main_arg16 m (dats m) c),
   ((h c).2 main_arg17 (Pipeline.mem_restRefs_of main_arg17 (by decide) (by decide))).trans (W_main_arg17 m (dats m) c),
   ((h c).2 main_arg18 (Pipeline.mem_restRefs_of main_arg18 (by decide) (by decide))).trans (W_main_arg18 m (dats m) c)⟩

/-- THE FRAME: every weakly fair execution of @main terminates, and the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.KernelIdeal.Fr

end
-- ==== Proof.LibNaryFive.lean ====
import Idealize.ShloMosaic.Lib.StableHlo.Run

/-!
The result of a five-operand n-ary operation over a literal family of references, with each operand's
contents read at its own reference.
-/

namespace Idealize.ShloMosaic.StableHlo

variable {τ : Topo} {sig : RefSig} {Val : EltTy → Type}
variable {x a b c d y : Ref sig .tc}

/-- The n-ary operation over the literal family of five references `![x, a, b, c, d]`: its result at the
    result reference `y` is the operation's function applied to the family of the five operands' contents,
    each read at its own reference and assembled by `Fin.cons`, in place of the family
    `fun k => F ↑(![x, a, b, c, d] k)` whose reference under the binder is no literal. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same statement with the result reference under `no_index`: the n-ary operation over the literal
    family of five references `![x, a, b, c, d]` has at `y` the operation's function applied to the
    `Fin.cons` family of the five operands' contents, each at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Idealize.ShloMosaic.StableHlo
-- ==== Proof.KernelIdealHostValues.lean ====
/-
  What the host operations of KernelIdeal compute, against the reference's stage functions.

  Before the kernel region the host builds the seasonal matrix (a combination of five slices of the
  third argument with cosines and sines of the scaled second argument), transposes it and rounds it to
  bf16, rounds the four weight matrices to bf16, and reshapes the four biases to rows. After the region
  it runs the two small networks on columns 0 and 1 of the input and adds their outputs into columns 0
  and 1 of the region's result. The seasonal matrix and the two network outputs are the same nests of
  operations as the reference's stages, so they are stated as the reference's stage functions of the
  arguments, and neither chain is opened afterwards.
-/
import proofs.«104341_j39754217292306_1_alg».proof.Proof.KernelIdealFrameHost
import proofs.«104341_j39754217292306_1_alg».proof.Proof.Gen.ReferenceIdeal.Read
import proofs.«104341_j39754217292306_1_alg».proof.Proof.LibNaryFive
import Idealize.ShloMosaic.Lib.ValueIdx
import Idealize.ShloMosaic.Lib.ValueLayout
import Idealize.ShloMosaic.Lib.Pipeline.Value

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Idealize.ShloMosaic.StableHlo

variable {F : FTy → Type} [FloatOps F]

variable (m : (ℓ : Loc nD τ sig) → Buf (Elt F) ℓ)

/-! ## The arrays the region finds -/

/-- The host prefix as one list of operations. -/
theorem V_eq (c : Dev nD) (b : Ref sig .tc) :
    V m c b = StableHlo.after (hostOps0 (F := F)) (fun b => m (c, b)) (Proc.devRef .tc b) := by
  dsimp only [V, V0]
  simp only [List.flatten_cons, List.flatten_nil, List.append_nil]

/-- The seasonal matrix, transposed and rounded to bf16: the matrix is the reference's stage of the two
    arguments it is built from. -/
theorem V_main_v32 (c : Dev nD) :
    V m c main_v32 = truncf .bf16
      (transpose S512x512 [1, 0]
        (Cert.ReferenceIdeal.Read.val_main_v30 (F := F) (m ((c : Thread nD τ).loc main_arg1))
          (m ((c : Thread nD τ).loc main_arg2))) transposes_S512x512_S512x512_1_0) bitsLt_bf16_f32 := by
  rw [V_eq]; simp only [hostOps0]
  after_results_simp
  rfl

/-- A weight matrix rounded to bf16. -/
theorem V_main_v33 (c : Dev nD) :
    V m c main_v33 = truncf .bf16 (m ((c : Thread nD τ).loc main_arg3)) bitsLt_bf16_f32 := by
  rw [V_eq]; simp only [hostOps0]
  after_results
theorem V_main_v34 (c : Dev nD) :
    V m c main_v34 = truncf .bf16 (m ((c : Thread nD τ).loc main_arg5)) bitsLt_bf16_f32 := by
  rw [V_eq]; simp only [hostOps0]
  after_results
theorem V_main_v35 (c : Dev nD) :
    V m c main_v35 = truncf .bf16 (m ((c : Thread nD τ).loc main_arg7)) bitsLt_bf16_f32 := by
  rw [V_eq]; simp only [hostOps0]
  after_results
theorem V_main_v36 (c : Dev nD) :
    V m c main_v36 = truncf .bf16 (m ((c : Thread nD τ).loc main_arg9)) bitsLt_bf16_f32 := by
  rw [V_eq]; simp only [hostOps0]
  after_results

/-- A bias as a row: the 512 entries recast to 1 × 512. -/
theorem V_main_v37 (c : Dev nD) :
    V m c main_v37 = shapeCast S1x512 (m ((c : Thread nD τ).loc main_arg4)) shapeCasts_S512_S1x512 := by
  rw [V_eq]; simp only [hostOps0]
  after_results
  rfl
theorem V_main_v38 (c : Dev nD) :
    V m c main_v38 = shapeCast S1x512 (m ((c : Thread nD τ).loc main_arg6)) shapeCasts_S512_S1x512 := by
  rw [V_eq]; simp only [hostOps0]
  after_results
  rfl
theorem V_main_v39 (c : Dev nD) :
    V m c main_v39 = shapeCast S1x512 (m ((c : Thread nD τ).loc main_arg8)) shapeCasts_S512_S1x512 := by
  rw [V_eq]; simp only [hostOps0]
  after_results
  rfl
theorem V_main_v40 (c : Dev nD) :
    V m c main_v40 = shapeCast S1x512 (m ((c : Thread nD τ).loc main_arg10)) shapeCasts_S512_S1x512 := by
  rw [V_eq]; simp only [hostOps0]
  after_results
  rfl

/-! ## The same arrays at the ideal values, entry by entry -/

section AtIdeal

open Idealize.ShloMosaic.ValueIdx

variable (mI : (ℓ : Loc nD τ sig) → Buf (Elt Ideal) ℓ)

/-- The rounding to bf16 is the identity at the ideal values, and the transposed matrix read at `(k, j)` is
    the seasonal matrix at `(j, k)`. -/
theorem lt_at (c : Dev nD) (k j : Fin 512) :
    V mI c main_v32 (ix2 k j)
      = Cert.ReferenceIdeal.Read.val_main_v30 (F := Ideal) (mI ((c : Thread nD τ).loc main_arg1))
          (mI ((c : Thread nD τ).loc main_arg2)) (ix2 j k) := by
  refine (congrFun (V_main_v32 mI c) (ix2 k j)).trans ?_
  show transpose S512x512 [1, 0] (Cert.ReferenceIdeal.Read.val_main_v30 (F := Ideal) (mI ((c : Thread nD τ).loc main_arg1))
    (mI ((c : Thread nD τ).loc main_arg2))) transposes_S512x512_S512x512_1_0 (ix2 k j) = _
  exact transpose_ix2_apply _ transposes_S512x512_S512x512_1_0 k j

/-- A weight matrix rounded to bf16 is itself at the ideal values. -/
theorem w_at33 (c : Dev nD) (k j : Fin 512) :
    V mI c main_v33 (ix2 k j) = mI ((c : Thread nD τ).loc main_arg3) (ix2 k j) :=
  congrFun (V_main_v33 mI c) (ix2 k j)
theorem w_at34 (c : Dev nD) (k j : Fin 512) :
    V mI c main_v34 (ix2 k j) = mI ((c : Thread nD τ).loc main_arg5) (ix2 k j) :=
  congrFun (V_main_v34 mI c) (ix2 k j)
theorem w_at35 (c : Dev nD) (k j : Fin 512) :
    V mI c main_v35 (ix2 k j) = mI ((c : Thread nD τ).loc main_arg7) (ix2 k j) :=
  congrFun (V_main_v35 mI c) (ix2 k j)
theorem w_at36 (c : Dev nD) (k j : Fin 512) :
    V mI c main_v36 (ix2 k j) = mI ((c : Thread nD τ).loc main_arg9) (ix2 k j) :=
  congrFun (V_main_v36 mI c) (ix2 k j)

/-- A bias as a row reads, at `(0, j)`, the bias at `j`. -/
theorem b_at37 (c : Dev nD) (j : Fin 512) :
    V mI c main_v37 (ix2 0 j) = mI ((c : Thread nD τ).loc main_arg4) (ix1 j) :=
  (congrFun (V_main_v37 mI c) (ix2 0 j)).trans (shapeCast_a_1a_apply _ shapeCasts_S512_S1x512 0 j)
theorem b_at38 (c : Dev nD) (j : Fin 512) :
    V mI c main_v38 (ix2 0 j) = mI ((c : Thread nD τ).loc main_arg6) (ix1 j) :=
  (congrFun (V_main_v38 mI c) (ix2 0 j)).trans (shapeCast_a_1a_apply _ shapeCasts_S512_S1x512 0 j)
theorem b_at39 (c : Dev nD) (j : Fin 512) :
    V mI c main_v39 (ix2 0 j) = mI ((c : Thread nD τ).loc main_arg8) (ix1 j) :=
  (congrFun (V_main_v39 mI c) (ix2 0 j)).trans (shapeCast_a_1a_apply _ shapeCasts_S512_S1x512 0 j)
theorem b_at40 (c : Dev nD) (j : Fin 512) :
    V mI c main_v40 (ix2 0 j) = mI ((c : Thread nD τ).loc main_arg10) (ix1 j) :=
  (congrFun (V_main_v40 mI c) (ix2 0 j)).trans (shapeCast_a_1a_apply _ shapeCasts_S512_S1x512 0 j)

end AtIdeal

/-! ## The result after the region -/

/-- What the stretches after the region start from: the pipeline's arrays as the region leaves them, every
    other buffer as the region found it. -/
def W0 (c : Dev nD) : Valuation τ sig (Elt F) :=
  Pipeline.withArrays spec0 c (V0 m c) fun w => (dats m 0 c).arrAt w cfg0.N

/-- The output window's array is what the region's write-backs leave. -/
theorem W0_main_v41 (c : Dev nD) : W0 m c (Proc.devRef .tc main_v41) = (dats m 0 c).arrAt 10 cfg0.N :=
  Pipeline.withArrays_arr spec0 launch0.win.arr_inj c _ _ 10

/-- The input array is an input window's: never written back, and launched as the region found it. -/
theorem W0_main_arg0 (c : Dev nD) : W0 m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The small networks' parameters are no window's array: as launched. -/
theorem W0_main_arg11 (c : Dev nD) : W0 m c (Proc.devRef .tc main_arg11) = m ((c : Thread nD τ).loc main_arg11) :=
  (Pipeline.withArrays_of_ne spec0 c (V0 m c) _ main_arg11 (by decide)).trans (V_main_arg11 m c)
theorem W0_main_arg12 (c : Dev nD) : W0 m c (Proc.devRef .tc main_arg12) = m ((c : Thread nD τ).loc main_arg12) :=
  (Pipeline.withArrays_of_ne spec0 c (V0 m c) _ main_arg12 (by decide)).trans (V_main_arg12 m c)
theorem W0_main_arg13 (c : Dev nD) : W0 m c (Proc.devRef .tc main_arg13) = m ((c : Thread nD τ).loc main_arg13) :=
  (Pipeline.withArrays_of_ne spec0 c (V0 m c) _ main_arg13 (by decide)).trans (V_main_arg13 m c)
theorem W0_main_arg14 (c : Dev nD) : W0 m c (Proc.devRef .tc main_arg14) = m ((c : Thread nD τ).loc main_arg14) :=
  (Pipeline.withArrays_of_ne spec0 c (V0 m c) _ main_arg14 (by decide)).trans (V_main_arg14 m c)
theorem W0_main_arg15 (c : Dev nD) : W0 m c (Proc.devRef .tc main_arg15) = m ((c : Thread nD τ).loc main_arg15) :=
  (Pipeline.withArrays_of_ne spec0 c (V0 m c) _ main_arg15 (by decide)).trans (V_main_arg15 m c)
theorem W0_main_arg16 (c : Dev nD) : W0 m c (Proc.devRef .tc main_arg16) = m ((c : Thread nD τ).loc main_arg16) :=
  (Pipeline.withArrays_of_ne spec0 c (V0 m c) _ main_arg16 (by decide)).trans (V_main_arg16 m c)
theorem W0_main_arg17 (c : Dev nD) : W0 m c (Proc.devRef .tc main_arg17) = m ((c : Thread nD τ).loc main_arg17) :=
  (Pipeline.withArrays_of_ne spec0 c (V0 m c) _ main_arg17 (by decide)).trans (V_main_arg17 m c)
theorem W0_main_arg18 (c : Dev nD) : W0 m c (Proc.devRef .tc main_arg18) = m ((c : Thread nD τ).loc main_arg18) :=
  (Pipeline.withArrays_of_ne spec0 c (V0 m c) _ main_arg18 (by decide)).trans (V_main_arg18 m c)

/-- Five columns side by side. -/
def cat5 (p0 p1 p2 p3 p4 : (⟨S16384x1, .f32⟩ : BufTy).Contents (Elt F)) : (⟨S16384x5, .f32⟩ : BufTy).Contents (Elt F) :=
  concatenate S16384x5 1 [⟨S16384x1, p0⟩, ⟨S16384x1, p1⟩, ⟨S16384x1, p2⟩, ⟨S16384x1, p3⟩, ⟨S16384x1, p4⟩]
    concatenates_S16384x1_S16384x1_S16384x1_S16384x1_S16384x1_S16384x5_d1

/-- The first five-piece concatenate (the first network's five features side by side): its result reads each
    piece at its own buffer. -/
theorem cat48_result (hxs hy) (G : Valuation τ sig (Elt F)) :
    (StableHlo.nary (τ := τ) ![main_v42, main_v43, main_v44, main_v45, main_v47] main_v48
      (fun u => concatenate S16384x5 1 [⟨S16384x1, u 0⟩, ⟨S16384x1, u 1⟩, ⟨S16384x1, u 2⟩, ⟨S16384x1, u 3⟩, ⟨S16384x1, u 4⟩]
        concatenates_S16384x1_S16384x1_S16384x1_S16384x1_S16384x1_S16384x5_d1) hxs hy).result G
        (no_index (Proc.devRef .tc main_v48))
      = cat5 (G (Proc.devRef .tc main_v42)) (G (Proc.devRef .tc main_v43)) (G (Proc.devRef .tc main_v44))
          (G (Proc.devRef .tc main_v45)) (G (Proc.devRef .tc main_v47)) :=
  StableHlo.nary_result _ _ _ hxs hy G

/-- The second five-piece concatenate (the second network's features). -/
theorem cat53_result (hxs hy) (G : Valuation τ sig (Elt F)) :
    (StableHlo.nary (τ := τ) ![main_v42, main_v43, main_v49, main_v50, main_v52] main_v53
      (fun u => concatenate S16384x5 1 [⟨S16384x1, u 0⟩, ⟨S16384x1, u 1⟩, ⟨S16384x1, u 2⟩, ⟨S16384x1, u 3⟩, ⟨S16384x1, u 4⟩]
        concatenates_S16384x1_S16384x1_S16384x1_S16384x1_S16384x1_S16384x5_d1) hxs hy).result G
        (no_index (Proc.devRef .tc main_v53))
      = cat5 (G (Proc.devRef .tc main_v42)) (G (Proc.devRef .tc main_v43)) (G (Proc.devRef .tc main_v49))
          (G (Proc.devRef .tc main_v50)) (G (Proc.devRef .tc main_v52)) :=
  StableHlo.nary_result _ _ _ hxs hy G

/-- Each operation's result at its own buffer is its function's value, at any other buffer what was there:
    one pass over a literal list of operations. -/
local macro "results_pass" : tactic =>
  `(tactic| (simp (disch := decide) only [after_cons, after_nil,
      nullary_result', unary_result', binary_result', ternary_result', reshape_result', cat48_result, cat53_result,
      nullary_result_ne', unary_result_ne', binary_result_ne', ternary_result_ne', reshape_result_ne', nary_result_ne']))

set_option maxHeartbeats 2000000 in
/-- The program's result: the region's output array with the first network's column added into column 0 and
    the second's into column 1, each network's column being the reference's stage of the arguments. -/
theorem tail_result (c : Dev nD) :
    Pipeline.afterTail₀ cfgs (dats m) 0 (V0 m) tailOps c main_v75
      = Host.scatter scatter_S16384x512_S1_S16384x1_01_n_1_0 FloatOps.addf
          (Host.scatter scatter_S16384x512_S1_S16384x1_01_n_1_0 FloatOps.addf
            ((dats m 0 c).arrAt 10 cfg0.N)
            (broadcastInDim S1 ![] bcast_S_S1 (constantI S_ 32 0#32))
            (Cert.ReferenceIdeal.Read.val_main_v81 (F := F) (m ((c : Thread nD τ).loc main_arg0))
              (m ((c : Thread nD τ).loc main_arg11)) (m ((c : Thread nD τ).loc main_arg12))
              (m ((c : Thread nD τ).loc main_arg13)) (m ((c : Thread nD τ).loc main_arg14))))
          (broadcastInDim S1 ![] bcast_S_S1 (constantI S_ 32 1#32))
          (Cert.ReferenceIdeal.Read.val_main_v90 (F := F) (m ((c : Thread nD τ).loc main_arg0))
            (m ((c : Thread nD τ).loc main_arg15)) (m ((c : Thread nD τ).loc main_arg16))
            (m ((c : Thread nD τ).loc main_arg17)) (m ((c : Thread nD τ).loc main_arg18))) := by
  unfold Pipeline.afterTail₀
  show StableHlo.after (List.flatten tailOps) (W0 m c) (Proc.devRef .tc main_v75) = _
  simp only [tailOps, hostOps1, hostOps1_1, hostOps1_2, hostOps1_3, hostOps1_4, List.flatten_cons, List.flatten_nil,
    List.append_nil, List.cons_append, List.nil_append, StableHlo.TRef.nullary, StableHlo.TRef.unary,
    StableHlo.TRef.binary]
  results_pass
  simp only [TRef.ofBuf, TRef.toBuf, cast_eq]
  rw [W0_main_v41, W0_main_arg0, W0_main_arg11, W0_main_arg12, W0_main_arg13, W0_main_arg14, W0_main_arg15,
    W0_main_arg16, W0_main_arg17, W0_main_arg18]
  rfl

end Cert.KernelIdeal.Fr

end
-- ==== Proof.Spec.lean ====
/-
  What both programs compute, over the extended reals, for ONE batch row.

  A row `r` of the input (512 entries) meets three things:
  * the seasonal operator: `rowDot r w j = Σ_k r k · w k j`, with `w k j = L j k`;
  * two small networks, each two dense layers with a rectifier between them, whose 512 outputs are
    averaged into ONE number for the row (`gcnMean`), the same in every column;
  * two scalars `cT`, `cH` that are added to columns 0 and 1 only (`ensoCol`).
  The kernel adds the pieces as `((lin + q) + c)` and then adds `cT` to column 0 and `cH` to column 1;
  the reference adds `lin + ((q + c) + ensoCol)`.  Addition of extended reals is associative and
  commutative and `0` is neutral, so the two groupings agree (`grouping`): no finiteness is needed.
-/
import Idealize.ShloMosaic.PureOps.Ideal

noncomputable section

namespace Cert.Spec

open Idealize.ShloMosaic

/-- A row against a 512 × 512 matrix, at output column `j`: `Σ_k r k · w k j`. -/
def rowDot (r : Fin 512 → EReal) (w : Fin 512 → Fin 512 → EReal) (j : Fin 512) : EReal :=
  ∑ k : Fin 512, r k * w k j

/-- Two dense layers with a rectifier between them, then the mean of the 512 outputs: the 512 is the
    float word `0x44000000`, divided by with the extended reals' division. -/
def gcnMean (r : Fin 512 → EReal) (w1 : Fin 512 → Fin 512 → EReal) (b1 : Fin 512 → EReal)
    (w2 : Fin 512 → Fin 512 → EReal) (b2 : Fin 512 → EReal) : EReal :=
  Ideal.div (∑ j : Fin 512, ((∑ h : Fin 512, max (rowDot r w1 h + b1 h) 0 * w2 h j) + b2 j))
    (Ideal.ofBits .f32 0x44000000#32)

/-- The two extra columns: `cT` in column 0, `cH` in column 1, nothing elsewhere. -/
def ensoCol (cT cH : EReal) (j : Fin 512) : EReal :=
  if j.val = 0 then cT else if j.val = 1 then cH else 0

/-- The kernel's order of additions at column `j`: the three big terms, then `cT` into column 0, then `cH`
    into column 1. -/
def kernelSum (lin q c cT cH : EReal) (j : Fin 512) : EReal :=
  if j.val = 1 then (if j.val = 0 then ((lin + q) + c) + cT else (lin + q) + c) + cH
  else (if j.val = 0 then ((lin + q) + c) + cT else (lin + q) + c)

/-- The reference's order of additions at column `j`. -/
def referenceSum (lin q c cT cH : EReal) (j : Fin 512) : EReal :=
  lin + ((q + c) + ensoCol cT cH j)

/-- The two orders agree: associativity of `+` and `x + 0 = x` on the extended reals. -/
theorem grouping (lin q c cT cH : EReal) (j : Fin 512) :
    kernelSum lin q c cT cH j = referenceSum lin q c cT cH j := by
  unfold kernelSum referenceSum ensoCol
  by_cases h0 : j.val = 0
  · have h1 : ¬ j.val = 1 := by omega
    rw [if_neg h1, if_pos h0, if_pos h0]; simp only [add_assoc]
  · by_cases h1 : j.val = 1
    · rw [if_pos h1, if_neg h0, if_neg h0, if_pos h1]; simp only [add_assoc]
    · rw [if_neg h1, if_neg h0, if_neg h0, if_neg h1, add_zero]; simp only [add_assoc]

end Cert.Spec

end
-- ==== Proof.KernelPayload.lean ====
/-
  The kernel's one stored value, read at a row and a column, over the extended reals.

  For a block of 1024 batch rows the kernel stores the sum of three terms: the row of the input against the
  seasonal operator, and two row means, each of a two-layer network with a rectifier between the layers.
  Here each operation of that value is read at an index: a matrix product into the zero accumulator is the
  sum over the contraction index, a lane sum is the sum over the columns, the layout steps read one element
  of their operand, and the pointwise operations are the extended reals'. Together they give the
  specification's `rowDot` and `gcnMean` at row `p`, column `q`.
-/
import proofs.«104341_j39754217292306_1_alg».proof.Proof.Gen.KernelIdeal.Skeleton
import proofs.«104341_j39754217292306_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The product's operand indices, axis by axis -/

/-- The left operand's row is the output's row. -/
theorem lhs_axis0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column is the contraction index. -/
theorem lhs_axis1 (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c
/-- The right operand's row is the contraction index. -/
theorem rhs_axis0 (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c
/-- The right operand's column is the output's column. -/
theorem rhs_axis1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-! ## A matrix product into the zero accumulator -/

/-- At row `p`, column `q`: the sum over `k` of the left operand at `(p, k)` times the right operand at `(k, q)`. -/
theorem matmul_zero_apply (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = ∑ k : Fin 512, a (ix2 p k) * b (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun ax => Fin.ext (by
    match ax with
    | ⟨0, _⟩ => exact lhs_axis0 _ _
    | ⟨1, _⟩ => exact (lhs_axis1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun ax => Fin.ext (by
    match ax with
    | ⟨0, _⟩ => exact (rhs_axis0 _ _).trans hk
    | ⟨1, _⟩ => exact rhs_axis1 _ _)
  rw [el, er]

/-! ## A lane sum -/

/-- The sum along the 512 columns, at row `p`. -/
theorem laneSum_apply (v : FVec Ideal S1024x512 .f32) (p : Fin 1024) :
    multiReduction (F := Ideal) .add [1] S1024 v 0x00000000#32 reduces_S1024x512_S1024 (.inl rfl) rfl (ix1 p)
      = ∑ j : Fin 512, v (ix2 p j) := by
  refine (Ideal.multiReduction_add_single v _ reduces_S1024x512_S1024 (.inl rfl) rfl (ix1 p)).trans ?_
  refine Finset.sum_congr rfl fun j _ => congrArg v ?_
  funext ax
  match ax with
  | ⟨0, _⟩ => rfl
  | ⟨1, _⟩ => rfl

/-! ## The layout steps -/

/-- A vector of 1024 entries viewed as a column reads, at `(p, u)`, its entry `p`. -/
theorem column_apply {α : Type} (v : S1024.Idx → α) (p : Fin 1024) (u : Fin 1) :
    shapeCast S1024x1 v shapeCasts_S1024_S1024x1 (ix2 p u) = v (ix1 p) :=
  shapeCast_apply v shapeCasts_S1024_S1024x1 _ _ (by
    have hu : u.val = 0 := by omega
    rw [Shape.rowMajor_val_two, Shape.rowMajor_val_one]
    show p.val = p.val * 1 + u.val
    rw [hu, Nat.mul_one, Nat.add_zero])

/-- A column broadcast over the 512 lanes reads, at `(p, q)`, the column's entry at row `p`. -/
theorem columnBroadcast_apply {α : Type} (v : S1024x1.Idx → α) (p : Fin 1024) (q : Fin 512) :
    broadcastTo S1024x512 v broadcasts_S1024x1_S1024x512 (ix2 p q) = v (ix2 p (0 : Fin 1)) := by
  refine broadcastTo_apply v broadcasts_S1024x1_S1024x512 (ix2 p q) (ix2 p (0 : Fin 1)) fun ax => ?_
  match ax with
  | ⟨0, _⟩ =>
    show p.val = if (1024 : Nat) = 1 then 0 else p.val
    rw [if_neg (by decide)]
  | ⟨1, _⟩ => rfl

/-- A bias row broadcast over the 1024 rows reads, at `(p, q)`, the row's entry at column `q`. -/
theorem rowBroadcast_apply {α : Type} (v : S1x512.Idx → α) (p : Fin 1024) (q : Fin 512) :
    broadcastTo S1024x512 (shapeCast S1x512 v shapeCasts_S1x512_S1x512) broadcasts_S1x512_S1024x512 (ix2 p q)
      = v (ix2 (0 : Fin 1) q) := by
  rw [shapeCast_self]
  exact broadcastTo_1b_ab_apply v broadcasts_S1x512_S1024x512 p q

/-! ## The kernel's terms -/

/-- A dense layer on the 1024 rows: the rows against a weight matrix, plus a bias row. -/
def dense (a : FVec Ideal S1024x512 .bf16) (w : FVec Ideal S512x512 .bf16) (b : FVec Ideal S1x512 .f32) : FVec Ideal S1024x512 .f32 :=
  addf (matmul dot_S1024x512_S512x512_S1024x512_1_0_0_1_n_n none a (shapeCast S512x512 w shapeCasts_S512x512_S512x512)
      (constant (F := Ideal) S1024x512 .f32 0x00000000#32))
    (broadcastTo S1024x512 (shapeCast S1x512 b shapeCasts_S1x512_S1x512) broadcasts_S1x512_S1024x512)

/-- At `(p, j)`: the sum over `k` of the row's entry times the weight, plus the bias at `j`. -/
theorem dense_apply (a : FVec Ideal S1024x512 .bf16) (w : FVec Ideal S512x512 .bf16) (b : FVec Ideal S1x512 .f32)
    (p : Fin 1024) (j : Fin 512) :
    dense a w b (ix2 p j) = (∑ k : Fin 512, a (ix2 p k) * w (ix2 k j)) + b (ix2 (0 : Fin 1) j) := by
  unfold dense
  rw [addf_apply, rowBroadcast_apply, shapeCast_self, matmul_zero_apply]

/-- The rectifier, the second dense layer, and the mean of its 512 outputs, the same in every column. -/
def meanOf (y : FVec Ideal S1024x512 .f32) (w : FVec Ideal S512x512 .bf16) (b : FVec Ideal S1x512 .f32) : FVec Ideal S1024x512 .f32 :=
  broadcastTo S1024x512
    (shapeCast S1024x1
      (divf
        (shapeCast S1024x1
          (multiReduction (F := Ideal) .add [1] S1024
            (dense (truncf .bf16 (maximumf y (broadcast S1024x512 (Scalar.ofBits (F := Ideal) .f32 0x00000000#32))) bitsLt_bf16_f32) w b)
            0x00000000#32 reduces_S1024x512_S1024 (.inl rfl) rfl)
          shapeCasts_S1024_S1024x1)
        (broadcast S1024x1 (Scalar.ofBits (F := Ideal) .f32 0x44000000#32)))
      shapeCasts_S1024x1_S1024x1)
    broadcasts_S1024x1_S1024x512

/-- At `(p, q)`: the sum over the 512 outputs of the second layer on the rectified row, divided by the word for 512. -/
theorem meanOf_apply (y : FVec Ideal S1024x512 .f32) (w : FVec Ideal S512x512 .bf16) (b : FVec Ideal S1x512 .f32)
    (p : Fin 1024) (q : Fin 512) :
    meanOf y w b (ix2 p q)
      = Ideal.div (∑ j : Fin 512, ((∑ h : Fin 512, max (y (ix2 p h)) 0 * w (ix2 h j)) + b (ix2 (0 : Fin 1) j)))
          (Ideal.ofBits .f32 0x44000000#32) := by
  unfold meanOf
  rw [columnBroadcast_apply, shapeCast_self, divf_apply, column_apply, laneSum_apply]
  refine congrArg₂ Ideal.div (Finset.sum_congr rfl fun j _ => ?_) rfl
  rw [dense_apply]
  refine congrArg (· + b (ix2 (0 : Fin 1) j)) (Finset.sum_congr rfl fun h _ => ?_)
  show max (y (ix2 p h)) (Ideal.ofBits .f32 0x00000000#32) * w (ix2 h j) = _
  rw [Ideal.ofBits_zero_f32]

/-! ## The stored value -/

/-- The seasonal term at `(p, q)`. -/
theorem pay3_apply (x : Vec Ideal S1024x512 .f32) (lt : Vec Ideal S512x512 .bf16) (p : Fin 1024) (q : Fin 512) :
    k0_pay3 (F := Ideal) x lt (ix2 p q) = Cert.Spec.rowDot (fun k => x (ix2 p k)) (fun k j => lt (ix2 k j)) q := by
  unfold k0_pay3 k0_pay2
  dsimp only
  rw [shapeCast_self, matmul_zero_apply]
  rfl

/-- A network's first layer at `(p, h)`. -/
theorem pay5_apply (x : Vec Ideal S1024x512 .f32) (w : FVec Ideal S512x512 .bf16) (b : FVec Ideal S1x512 .f32) (p : Fin 1024) (h : Fin 512) :
    k0_pay5 (F := Ideal) x w b (ix2 p h) = Cert.Spec.rowDot (fun k => x (ix2 p k)) (fun k h => w (ix2 k h)) h + b (ix2 (0 : Fin 1) h) := by
  show dense (truncf .bf16 x bitsLt_bf16_f32) w b (ix2 p h) = _
  rw [dense_apply]
  rfl

theorem payload_apply (x : Vec Ideal S1024x512 .f32) (lt qw1 qw2 cw1 cw2 : Vec Ideal S512x512 .bf16) (qb1 qb2 cb1 cb2 : Vec Ideal S1x512 .f32) (p : Fin 1024) (q : Fin 512) :
    k0_pay1 (F := Ideal) (k0_pay3 x lt) (k0_pay4 x qw1 qb1 qw2 qb2) (k0_pay5 x cw1 cb1) (Scalar.ofBits .f32 0x00000000#32) cw2 cb2 (ix2 p q)
      = (Cert.Spec.rowDot (fun k => x (ix2 p k)) (fun k j => lt (ix2 k j)) q
          + Cert.Spec.gcnMean (fun k => x (ix2 p k)) (fun k h => qw1 (ix2 k h)) (fun h => qb1 (ix2 0 h)) (fun h j => qw2 (ix2 h j)) (fun j => qb2 (ix2 0 j)))
        + Cert.Spec.gcnMean (fun k => x (ix2 p k)) (fun k h => cw1 (ix2 k h)) (fun h => cb1 (ix2 0 h)) (fun h j => cw2 (ix2 h j)) (fun j => cb2 (ix2 0 j)) := by
  show (k0_pay3 (F := Ideal) x lt (ix2 p q) + meanOf (k0_pay5 (F := Ideal) x qw1 qb1) qw2 qb2 (ix2 p q))
      + meanOf (k0_pay5 (F := Ideal) x cw1 cb1) cw2 cb2 (ix2 p q) = _
  rw [pay3_apply, meanOf_apply, meanOf_apply]
  unfold Cert.Spec.gcnMean
  simp only [pay5_apply]

end Cert.KernelIdeal.Payload

end
-- ==== Proof.KernelIdealValue.lean ====
/-
  The array the kernel region leaves, as ONE function of the arrays it finds.

  The grid has 16 points; point `t` stages rows `1024·t … 1024·t + 1023` of the input and of the output
  (windows 0 and 10) and the whole of every weight and bias array (windows 1 … 9, the same block at every
  point).  The body's one store writes, at row `p` and column `q` of the block, the sum
  `(rowDot + gcnMean) + gcnMean` of row `p` of the input block; row `p` of block `t` is row `1024·t + p` of the
  array, so every point's write-back is the restriction of ONE function `Kout` to its block, and the 16 blocks
  tile the 16384 rows: the array ends at `Kout`.
-/
import proofs.«104341_j39754217292306_1_alg».proof.Proof.KernelIdealFrameDefs
import proofs.«104341_j39754217292306_1_alg».proof.Proof.KernelPayload
import proofs.«104341_j39754217292306_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The arrays the region finds, at their literal types. -/
abbrev aX (c : Dev nD) : S16384x512.Idx → EReal := V m c main_arg0
abbrev aLT (c : Dev nD) : S512x512.Idx → EReal := V m c main_v32
abbrev aQW1 (c : Dev nD) : S512x512.Idx → EReal := V m c main_v33
abbrev aQB1 (c : Dev nD) : S1x512.Idx → EReal := V m c main_v37
abbrev aQW2 (c : Dev nD) : S512x512.Idx → EReal := V m c main_v34
abbrev aQB2 (c : Dev nD) : S1x512.Idx → EReal := V m c main_v38
abbrev aCW1 (c : Dev nD) : S512x512.Idx → EReal := V m c main_v35
abbrev aCB1 (c : Dev nD) : S1x512.Idx → EReal := V m c main_v39
abbrev aCW2 (c : Dev nD) : S512x512.Idx → EReal := V m c main_v36
abbrev aCB2 (c : Dev nD) : S1x512.Idx → EReal := V m c main_v40

/-- What the region's output array holds at row `b`, column `j`. -/
def KoutAt (c : Dev nD) (b : Fin 16384) (j : Fin 512) : EReal :=
  (Cert.Spec.rowDot (fun k => aX m c (ix2 b k)) (fun k j' => aLT m c (ix2 k j')) j
      + Cert.Spec.gcnMean (fun k => aX m c (ix2 b k)) (fun k h => aQW1 m c (ix2 k h)) (fun h => aQB1 m c (ix2 0 h))
          (fun h j' => aQW2 m c (ix2 h j')) (fun j' => aQB2 m c (ix2 0 j')))
    + Cert.Spec.gcnMean (fun k => aX m c (ix2 b k)) (fun k h => aCW1 m c (ix2 k h)) (fun h => aCB1 m c (ix2 0 h))
        (fun h j' => aCW2 m c (ix2 h j')) (fun j' => aCB2 m c (ix2 0 j'))

/-- The same as one function of the array index. -/
def Kout (c : Dev nD) : S16384x512.Idx → EReal := fun i => KoutAt m c ⟨(i 0).val, (i 0).isLt⟩ ⟨(i 1).val, (i 1).isLt⟩

theorem hz : (![0, 0] : Fin 2 → Nat) = fun _ => 0 := funext fun a => by fin_cases a <;> rfl

/-- The printed index maps over the grid: the input's and the output's row block is the point's number, every other
    block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The input blocks at a point, at their literal types. -/
abbrev bX (c : Dev nD) (t : Fin cfg0.N) : Vec Ideal S1024x512 .f32 := iblk m c 0 t
abbrev bLT (c : Dev nD) (t : Fin cfg0.N) : Vec Ideal S512x512 .bf16 := iblk m c 1 t
abbrev bQW1 (c : Dev nD) (t : Fin cfg0.N) : Vec Ideal S512x512 .bf16 := iblk m c 2 t
abbrev bQB1 (c : Dev nD) (t : Fin cfg0.N) : Vec Ideal S1x512 .f32 := iblk m c 3 t
abbrev bQW2 (c : Dev nD) (t : Fin cfg0.N) : Vec Ideal S512x512 .bf16 := iblk m c 4 t
abbrev bQB2 (c : Dev nD) (t : Fin cfg0.N) : Vec Ideal S1x512 .f32 := iblk m c 5 t
abbrev bCW1 (c : Dev nD) (t : Fin cfg0.N) : Vec Ideal S512x512 .bf16 := iblk m c 6 t
abbrev bCB1 (c : Dev nD) (t : Fin cfg0.N) : Vec Ideal S1x512 .f32 := iblk m c 7 t
abbrev bCW2 (c : Dev nD) (t : Fin cfg0.N) : Vec Ideal S512x512 .bf16 := iblk m c 8 t
abbrev bCB2 (c : Dev nD) (t : Fin cfg0.N) : Vec Ideal S1x512 .f32 := iblk m c 9 t

/-- Row `p` of the input block at point `t` is row `1024·t + p` of the input array. -/
theorem bX_at (c : Dev nD) (t : Fin cfg0.N) (p : Fin 1024) (k : Fin 512) (hb : t.val * 1024 + p.val < 16384) :
    bX m c t (ix2 p k) = aX m c (ix2 ⟨t.val * 1024 + p.val, hb⟩ k) := by
  obtain ⟨e0, e1, -⟩ := idx_facts t
  show V m c main_arg0 (((cfg0.win 0).blk t).view.emb (ix2 p k)) = V m c main_arg0 _
  congr 1
  funext a; apply Fin.ext
  match a with
  | ⟨0, _⟩ => show win0_0.index t (0 : Fin 2) * 1024 + 1 * p.val = t.val * 1024 + p.val; omega
  | ⟨1, _⟩ => show win0_0.index t (1 : Fin 2) * 512 + 1 * k.val = k.val; omega

/-- Window 1's block is its whole array at every point. -/
theorem bLT_at (c : Dev nD) (t : Fin cfg0.N) (p : Fin 512) (k : Fin 512) :
    bLT m c t (ix2 p k) = aLT m c (ix2 p k) := by
  obtain ⟨e0, e1, e2, e3, e4, e5, e6, e7, e8, e9, e10, e11, e12, e13, e14, e15, e16, e17, e18, e19, e20, e21⟩ := idx_facts t
  show V m c main_v32 (((cfg0.win 1).blk t).view.emb (ix2 p k)) = V m c main_v32 _
  congr 1
  funext a; apply Fin.ext
  match a with
  | ⟨0, _⟩ => show win0_1.index t (0 : Fin 2) * 512 + 1 * p.val = p.val; omega
  | ⟨1, _⟩ => show win0_1.index t (1 : Fin 2) * 512 + 1 * k.val = k.val; omega

/-- Window 2's block is its whole array at every point. -/
theorem bQW1_at (c : Dev nD) (t : Fin cfg0.N) (p : Fin 512) (k : Fin 512) :
    bQW1 m c t (ix2 p k) = aQW1 m c (ix2 p k) := by
  obtain ⟨e0, e1, e2, e3, e4, e5, e6, e7, e8, e9, e10, e11, e12, e13, e14, e15, e16, e17, e18, e19, e20, e21⟩ := idx_facts t
  show V m c main_v33 (((cfg0.win 2).blk t).view.emb (ix2 p k)) = V m c main_v33 _
  congr 1
  funext a; apply Fin.ext
  match a with
  | ⟨0, _⟩ => show win0_2.index t (0 : Fin 2) * 512 + 1 * p.val = p.val; omega
  | ⟨1, _⟩ => show win0_2.index t (1 : Fin 2) * 512 + 1 * k.val = k.val; omega

/-- Window 3's block is its whole array at every point. -/
theorem bQB1_at (c : Dev nD) (t : Fin cfg0.N) (p : Fin 1) (k : Fin 512) :
    bQB1 m c t (ix2 p k) = aQB1 m c (ix2 p k) := by
  obtain ⟨e0, e1, e2, e3, e4, e5, e6, e7, e8, e9, e10, e11, e12, e13, e14, e15, e16, e17, e18, e19, e20, e21⟩ := idx_facts t
  show V m c main_v37 (((cfg0.win 3).blk t).view.emb (ix2 p k)) = V m c main_v37 _
  congr 1
  funext a; apply Fin.ext
  match a with
  | ⟨0, _⟩ => show win0_3.index t (0 : Fin 2) * 1 + 1 * p.val = p.val; omega
  | ⟨1, _⟩ => show win0_3.index t (1 : Fin 2) * 512 + 1 * k.val = k.val; omega

/-- Window 4's block is its whole array at every point. -/
theorem bQW2_at (c : Dev nD) (t : Fin cfg0.N) (p : Fin 512) (k : Fin 512) :
    bQW2 m c t (ix2 p k) = aQW2 m c (ix2 p k) := by
  obtain ⟨e0, e1, e2, e3, e4, e5, e6, e7, e8, e9, e10, e11, e12, e13, e14, e15, e16, e17, e18, e19, e20, e21⟩ := idx_facts t
  show V m c main_v34 (((cfg0.win 4).blk t).view.emb (ix2 p k)) = V m c main_v34 _
  congr 1
  funext a; apply Fin.ext
  match a with
  | ⟨0, _⟩ => show win0_4.index t (0 : Fin 2) * 512 + 1 * p.val = p.val; omega
  | ⟨1, _⟩ => show win0_4.index t (1 : Fin 2) * 512 + 1 * k.val = k.val; omega

/-- Window 5's block is its whole array at every point. -/
theorem bQB2_at (c : Dev nD) (t : Fin cfg0.N) (p : Fin 1) (k : Fin 512) :
    bQB2 m c t (ix2 p k) = aQB2 m c (ix2 p k) := by
  obtain ⟨e0, e1, e2, e3, e4, e5, e6, e7, e8, e9, e10, e11, e12, e13, e14, e15, e16, e17, e18, e19, e20, e21⟩ := idx_facts t
  show V m c main_v38 (((cfg0.win 5).blk t).view.emb (ix2 p k)) = V m c main_v38 _
  congr 1
  funext a; apply Fin.ext
  match a with
  | ⟨0, _⟩ => show win0_5.index t (0 : Fin 2) * 1 + 1 * p.val = p.val; omega
  | ⟨1, _⟩ => show win0_5.index t (1 : Fin 2) * 512 + 1 * k.val = k.val; omega

/-- Window 6's block is its whole array at every point. -/
theorem bCW1_at (c : Dev nD) (t : Fin cfg0.N) (p : Fin 512) (k : Fin 512) :
    bCW1 m c t (ix2 p k) = aCW1 m c (ix2 p k) := by
  obtain ⟨e0, e1, e2, e3, e4, e5, e6, e7, e8, e9, e10, e11, e12, e13, e14, e15, e16, e17, e18, e19, e20, e21⟩ := idx_facts t
  show V m c main_v35 (((cfg0.win 6).blk t).view.emb (ix2 p k)) = V m c main_v35 _
  congr 1
  funext a; apply Fin.ext
  match a with
  | ⟨0, _⟩ => show win0_6.index t (0 : Fin 2) * 512 + 1 * p.val = p.val; omega
  | ⟨1, _⟩ => show win0_6.index t (1 : Fin 2) * 512 + 1 * k.val = k.val; omega

/-- Window 7's block is its whole array at every point. -/
theorem bCB1_at (c : Dev nD) (t : Fin cfg0.N) (p : Fin 1) (k : Fin 512) :
    bCB1 m c t (ix2 p k) = aCB1 m c (ix2 p k) := by
  obtain ⟨e0, e1, e2, e3, e4, e5, e6, e7, e8, e9, e10, e11, e12, e13, e14, e15, e16, e17, e18, e19, e20, e21⟩ := idx_facts t
  show V m c main_v39 (((cfg0.win 7).blk t).view.emb (ix2 p k)) = V m c main_v39 _
  congr 1
  funext a; apply Fin.ext
  match a with
  | ⟨0, _⟩ => show win0_7.index t (0 : Fin 2) * 1 + 1 * p.val = p.val; omega
  | ⟨1, _⟩ => show win0_7.index t (1 : Fin 2) * 512 + 1 * k.val = k.val; omega

/-- Window 8's block is its whole array at every point. -/
theorem bCW2_at (c : Dev nD) (t : Fin cfg0.N) (p : Fin 512) (k : Fin 512) :
    bCW2 m c t (ix2 p k) = aCW2 m c (ix2 p k) := by
  obtain ⟨e0, e1, e2, e3, e4, e5, e6, e7, e8, e9, e10, e11, e12, e13, e14, e15, e16, e17, e18, e19, e20, e21⟩ := idx_facts t
  show V m c main_v36 (((cfg0.win 8).blk t).view.emb (ix2 p k)) = V m c main_v36 _
  congr 1
  funext a; apply Fin.ext
  match a with
  | ⟨0, _⟩ => show win0_8.index t (0 : Fin 2) * 512 + 1 * p.val = p.val; omega
  | ⟨1, _⟩ => show win0_8.index t (1 : Fin 2) * 512 + 1 * k.val = k.val; omega

/-- Window 9's block is its whole array at every point. -/
theorem bCB2_at (c : Dev nD) (t : Fin cfg0.N) (p : Fin 1) (k : Fin 512) :
    bCB2 m c t (ix2 p k) = aCB2 m c (ix2 p k) := by
  obtain ⟨e0, e1, e2, e3, e4, e5, e6, e7, e8, e9, e10, e11, e12, e13, e14, e15, e16, e17, e18, e19, e20, e21⟩ := idx_facts t
  show V m c main_v40 (((cfg0.win 9).blk t).view.emb (ix2 p k)) = V m c main_v40 _
  congr 1
  funext a; apply Fin.ext
  match a with
  | ⟨0, _⟩ => show win0_9.index t (0 : Fin 2) * 1 + 1 * p.val = p.val; omega
  | ⟨1, _⟩ => show win0_9.index t (1 : Fin 2) * 512 + 1 * k.val = k.val; omega

/-- WHAT POINT `t` WRITES BACK is block `t` of `Kout`. -/
theorem flushed_eq (c : Dev nD) (t : Fin cfg0.N) :
    (dats m 0 c).flushed 10 t = ((cfg0.win 10).blk t).view.read (Elt Ideal) (Kout m c) := by
  show (cfg0.win 10).cut (grid0.coords t) ((dats m 0 c).after 10 t) = _
  rw [after0_10]
  unfold outAt outBlock
  rw [View.canon_unit_zero hz]
  simp only [View.ld_unit_zero (S := S1024x512) hz, View.ld_unit_zero (S := S512x512) hz, View.ld_unit_zero (S := S1x512) hz]
  funext y
  obtain ⟨p, q, rfl⟩ : ∃ (p : Fin 1024) (q : Fin 512), y = ix2 p q := ⟨y 0, y 1, eq_ix2 y⟩
  have ht : t.val < 16 := Nat.lt_of_lt_of_eq t.isLt N_0
  have hb : t.val * 1024 + p.val < 16384 := by have := p.isLt; omega
  obtain ⟨e0, e1, e2, e3, e4, e5, e6, e7, e8, e9, e10, e11, e12, e13, e14, e15, e16, e17, e18, e19, e20, e21⟩ := idx_facts t
  have hi : ((cfg0.win 10).blk t).view.emb (ix2 p q) = ix2 (⟨t.val * 1024 + p.val, hb⟩ : Fin 16384) q := by
    funext a; apply Fin.ext
    match a with
    | ⟨0, _⟩ => show win0_10.index t (0 : Fin 2) * 1024 + 1 * p.val = t.val * 1024 + p.val; omega
    | ⟨1, _⟩ => show win0_10.index t (1 : Fin 2) * 512 + 1 * q.val = q.val; omega
  show Cert.KernelIdeal.Gen.k0_pay1 (F := Ideal) (k0_pay3 (bX m c t) (bLT m c t)) (k0_pay4 (bX m c t) (bQW1 m c t) (bQB1 m c t) (bQW2 m c t) (bQB2 m c t))
      (k0_pay5 (bX m c t) (bCW1 m c t) (bCB1 m c t)) (Scalar.ofBits .f32 0x00000000#32) (bCW2 m c t) (bCB2 m c t) (ix2 p q)
    = Kout m c (((cfg0.win 10).blk t).view.emb (ix2 p q))
  rw [hi]
  refine (Cert.KernelIdeal.Payload.payload_apply (bX m c t) (bLT m c t) (bQW1 m c t) (bQW2 m c t) (bCW1 m c t) (bCW2 m c t)
    (bQB1 m c t) (bQB2 m c t) (bCB1 m c t) (bCB2 m c t) p q).trans ?_
  show _ = KoutAt m c ⟨t.val * 1024 + p.val, hb⟩ q
  unfold KoutAt
  simp only [bX_at m c t _ _ hb, bLT_at, bQW1_at, bQB1_at, bQW2_at, bQB2_at, bCW1_at, bCB1_at, bCW2_at, bCB2_at]

/-- An index of the output array is in point `t`'s block iff its row is among the block's 1024 rows. -/
theorem mem_blk (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v41).slice (win0_10.rect t)).set ↔ _
  rw [View.set_slice_whole, Rect.mem_set_unit]
  exact Iff.rfl

/-- The 16 blocks tile the 16384 rows: row `r` is in block `r / 1024`. -/
theorem cover (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  refine ⟨⟨(i 0).val / 1024, Nat.lt_of_lt_of_eq (by omega : (i 0).val / 1024 < 16) N_0.symm⟩, flush0_10 _, ?_⟩
  rw [mem_blk]
  obtain ⟨e0, e1, e2, e3, e4, e5, e6, e7, e8, e9, e10, e11, e12, e13, e14, e15, e16, e17, e18, e19, e20, e21⟩ := idx_facts ⟨(i 0).val / 1024, Nat.lt_of_lt_of_eq (by omega : (i 0).val / 1024 < 16) N_0.symm⟩
  intro a
  match a with
  | ⟨0, _⟩ => show win0_10.index _ (0 : Fin 2) * 1024 ≤ (i 0).val ∧ (i 0).val < win0_10.index _ (0 : Fin 2) * 1024 + 1024; simp only [] at e20; omega
  | ⟨1, _⟩ => show win0_10.index _ (1 : Fin 2) * 512 ≤ (i 1).val ∧ (i 1).val < win0_10.index _ (1 : Fin 2) * 512 + 512; omega

/-- THE OUTPUT ARRAY after the region is `Kout`. -/
theorem final (c : Dev nD) : (dats m 0 c).arrAt 10 cfg0.N = Kout m c :=
  (dats m 0 c).arrAt_eq_of_cover 10 (Kout m c) (fun t _ => flushed_eq m c t) (cover)

end Cert.KernelIdeal.KValue

end
-- ==== Proof.LibScatterFold.lean ====
import Idealize.ShloMosaic.PureOps.ShapeOps
import Mathlib.Data.List.FinRange
import Mathlib.Data.List.Nodup

/-!
The scatter of an update into an operand, read at one target index: the left fold over the update's
indices changes the target only at the update indices that land on it.
-/

namespace Idealize.ShloMosaic

variable {α : Type} {s si u : Shape} {w : Nat}

/-- One step of the scatter's fold: the update index numbered `n` in row-major order replaces the current
    value at the index it lands on by `f` of that value and the update's element, and changes nothing when it
    lands outside the operand. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the left fold of `Host.scatterStep` over the update's indices in row-major order. -/
theorem Host.scatter_eq_foldl (d : ScatterDims s si u) (f : α → α → α) (x : s.Idx → α) (idx : IVec si w)
    (upd : u.Idx → α) :
    Host.scatter d f x idx upd = (List.finRange u.numel).foldl (Host.scatterStep d f idx upd) x := rfl

/-- A step whose update index does not land on `i'` leaves the value at `i'`. -/
theorem Host.scatterStep_of_ne (d : ScatterDims s si u) (f : α → α → α) (idx : IVec si w) (upd : u.Idx → α)
    (r : s.Idx → α) (n : Fin u.numel) (i' : s.Idx)
    (h : d.resultIdx? (u.rowMajor.symm n) idx ≠ some i') :
    Host.scatterStep d f idx upd r n i' = r i' := by
  unfold Host.scatterStep
  cases hr : d.resultIdx? (u.rowMajor.symm n) idx with
  | none => rfl
  | some i =>
    have hne : i' ≠ i := fun e => h (by rw [hr, e])
    simp only [if_neg hne]

/-- A step whose update index lands on `i'` replaces the value at `i'` by `f` of it and the update's element. -/
theorem Host.scatterStep_of_eq (d : ScatterDims s si u) (f : α → α → α) (idx : IVec si w) (upd : u.Idx → α)
    (r : s.Idx → α) (n : Fin u.numel) (i' : s.Idx)
    (h : d.resultIdx? (u.rowMajor.symm n) idx = some i') :
    Host.scatterStep d f idx upd r n i' = f (r i') (upd (u.rowMajor.symm n)) := by
  unfold Host.scatterStep
  rw [h]
  simp only [if_true]

/-- The fold of the scatter's step over a list none of whose update indices lands on `i'` leaves the value
    at `i'`. -/
theorem Host.scatterStep_foldl_of_ne (d : ScatterDims s si u) (f : α → α → α) (idx : IVec si w) (upd : u.Idx → α)
    (i' : s.Idx) (l : List (Fin u.numel))
    (hl : ∀ n ∈ l, d.resultIdx? (u.rowMajor.symm n) idx ≠ some i') (x : s.Idx → α) :
    l.foldl (Host.scatterStep d f idx upd) x i' = x i' := by
  induction l generalizing x with
  | nil => rfl
  | cons n l ih =>
    rw [List.foldl_cons, ih (fun m hm => hl m (List.mem_cons_of_mem n hm))]
    exact Host.scatterStep_of_ne d f idx upd x n i' (hl n List.mem_cons_self)

/-- (a) When no update index lands on `i'`, the scatter leaves the operand's element at `i'`. -/
theorem Host.scatter_apply_of_forall_ne (d : ScatterDims s si u) (f : α → α → α) (x : s.Idx → α) (idx : IVec si w)
    (upd : u.Idx → α) (i' : s.Idx) (h : ∀ jj, d.resultIdx? jj idx ≠ some i') :
    Host.scatter d f x idx upd i' = x i' := by
  rw [Host.scatter_eq_foldl]
  exact Host.scatterStep_foldl_of_ne d f idx upd i' _ (fun n _ => h _) x

/-- (b) When update index `j0` lands on `i'` and is the only one that does, the scatter's element at `i'` is
    `f` of the operand's element and the update's element at `j0`. -/
theorem Host.scatter_apply_of_unique (d : ScatterDims s si u) (f : α → α → α) (x : s.Idx → α) (idx : IVec si w)
    (upd : u.Idx → α) (i' : s.Idx) (j0 : u.Idx) (h0 : d.resultIdx? j0 idx = some i')
    (huniq : ∀ jj, d.resultIdx? jj idx = some i' → jj = j0) :
    Host.scatter d f x idx upd i' = f (x i') (upd j0) := by
  rw [Host.scatter_eq_foldl]
  have hmem : u.rowMajor j0 ∈ List.finRange u.numel := List.mem_finRange _
  obtain ⟨l₁, l₂, hsplit⟩ := List.append_of_mem hmem
  have hnd : (l₁ ++ u.rowMajor j0 :: l₂).Nodup := hsplit ▸ List.nodup_finRange u.numel
  have hne : ∀ n, n ≠ u.rowMajor j0 → d.resultIdx? (u.rowMajor.symm n) idx ≠ some i' := by
    intro n hn hland
    apply hn
    have := huniq _ hland
    rw [← this, Equiv.apply_symm_apply]
  have h₁ : ∀ n ∈ l₁, d.resultIdx? (u.rowMajor.symm n) idx ≠ some i' := by
    intro n hn
    apply hne
    rintro rfl
    exact (List.nodup_append.1 hnd).2.2 _ hn _ List.mem_cons_self rfl
  have h₂ : ∀ n ∈ l₂, d.resultIdx? (u.rowMajor.symm n) idx ≠ some i' := by
    intro n hn
    apply hne
    rintro rfl
    exact (List.nodup_cons.1 (List.nodup_append.1 hnd).2.1).1 hn
  rw [hsplit, List.foldl_append, List.foldl_cons, Host.scatterStep_foldl_of_ne d f idx upd i' l₂ h₂]
  have hl : d.resultIdx? (u.rowMajor.symm (u.rowMajor j0)) idx = some i' := by
    rw [Equiv.symm_apply_apply]; exact h0
  rw [Host.scatterStep_of_eq d f idx upd _ _ i' hl, Host.scatterStep_foldl_of_ne d f idx upd i' l₁ h₁,
    Equiv.symm_apply_apply]

end Idealize.ShloMosaic
-- ==== Proof.ScatterColumn.lean ====
import proofs.«104341_j39754217292306_1_alg».proof.KernelIdeal
import proofs.«104341_j39754217292306_1_alg».proof.Proof.LibScatterFold
import Idealize.ShloMosaic.Lib.ValueIdx

/-!
The scatter that adds a 16384 × 1 update into ONE column of a 16384 × 512 operand, read at an index: the
whole update is one window placed at the column the one scatter index names, so update index `(b, 0)` lands
on `(b, c)` and on nothing else, and the result is the operand with the update added in column `c`.
-/

noncomputable section

namespace Cert.KernelIdeal.ScatterColumn

open Idealize.ShloMosaic Idealize.ShloMosaic.ValueIdx Cert.KernelIdeal

variable [Facts₀]

/-- The scatter indices hold one start index with one component: every update index reads it at the one
    index of the scatter indices. -/
theorem siIdx_eq (jj : S16384x1.Idx) (c : Fin scatter_S16384x512_S1_S16384x1_01_n_1_0.scatterDimsToOperandDims.length) :
    scatter_S16384x512_S1_S16384x1_01_n_1_0.siIdx jj c = ix1 0 := by
  funext b
  have hb : b = 0 := Subsingleton.elim _ _
  subst hb
  unfold ScatterDims.siIdx
  rw [dif_pos (show ((0 : Fin S1.rank).val = scatter_S16384x512_S1_S16384x1_01_n_1_0.indexVectorDim) from rfl)]
  apply Fin.ext
  have : c.val < 1 := c.isLt
  show c.val = 0
  omega

/-- The window starts at row 0: the rows' axis is not a scattered axis. -/
theorem start_zero (jj : S16384x1.Idx) (idx : IVec S1 32) : scatter_S16384x512_S1_S16384x1_01_n_1_0.start jj idx 0 = 0 := by
  unfold ScatterDims.start
  have h : (0 : Fin S16384x512.rank) ∉ scatter_S16384x512_S1_S16384x1_01_n_1_0.scatterDimsToOperandDims := by
    show (0 : Fin S16384x512.rank) ∉ ([1] : List (Fin S16384x512.rank)); decide
  rw [dif_neg h]

/-- The window starts at the column the scatter indices name, read signed. -/
theorem start_one (jj : S16384x1.Idx) (idx : IVec S1 32) : scatter_S16384x512_S1_S16384x1_01_n_1_0.start jj idx 1 = (idx (ix1 0)).toInt := by
  unfold ScatterDims.start
  have h : (1 : Fin S16384x512.rank) ∈ scatter_S16384x512_S1_S16384x1_01_n_1_0.scatterDimsToOperandDims := by
    show (1 : Fin S16384x512.rank) ∈ ([1] : List (Fin S16384x512.rank)); decide
  rw [dif_pos h, siIdx_eq]

/-- The window coordinate on the rows' axis is the update index's row. -/
theorem window_zero (jj : S16384x1.Idx) : scatter_S16384x512_S1_S16384x1_01_n_1_0.window jj 0 = (jj 0).val := by
  unfold ScatterDims.window
  have h : (0 : Fin S16384x512.rank) ∈ scatter_S16384x512_S1_S16384x1_01_n_1_0.sKept := by
    show (0 : Fin S16384x512.rank) ∈ S16384x512.kept []; decide
  rw [dif_pos h]
  rfl

/-- The window coordinate on the columns' axis is 0: the update has one column. -/
theorem window_one (jj : S16384x1.Idx) : scatter_S16384x512_S1_S16384x1_01_n_1_0.window jj 1 = 0 := by
  unfold ScatterDims.window
  have h : (1 : Fin S16384x512.rank) ∈ scatter_S16384x512_S1_S16384x1_01_n_1_0.sKept := by
    show (1 : Fin S16384x512.rank) ∈ S16384x512.kept []; decide
  rw [dif_pos h]
  have : (jj 1).val < 1 := (jj 1).isLt
  show (jj 1).val = 0
  omega

/-- Where an update index lands: with the one scatter index the column `c` (below 512), update index `jj`
    lands on row `jj 0`, column `c`, inside the operand. -/
theorem resultIdx?_eq (idx : IVec S1 32) (c : Fin 512) (hidx : idx (ix1 0) = BitVec.ofNat 32 c.val)
    (jj : S16384x1.Idx) :
    scatter_S16384x512_S1_S16384x1_01_n_1_0.resultIdx? jj idx = some (ix2 (jj 0) c) := by
  have hc : (idx (ix1 0)).toInt = (c.val : Int) := by
    rw [hidx, BitVec.toInt_eq_toNat_cond, BitVec.toNat_ofNat]
    have := c.isLt
    split <;> omega
  have hj0 : (jj 0).val < 16384 := idx2_lt0 jj
  have hs0 : S16384x512.size 0 = 16384 := rfl
  have hs1 : S16384x512.size 1 = 512 := rfl
  have hall : ∀ a, 0 ≤ scatter_S16384x512_S1_S16384x1_01_n_1_0.start jj idx a + scatter_S16384x512_S1_S16384x1_01_n_1_0.window jj a
      ∧ scatter_S16384x512_S1_S16384x1_01_n_1_0.start jj idx a + scatter_S16384x512_S1_S16384x1_01_n_1_0.window jj a < S16384x512.size a := by
    refine Fin.forall_fin_two.2 ⟨?_, ?_⟩
    · rw [start_zero, window_zero, hs0]; omega
    · rw [start_one, window_one, hc, hs1]; have := c.isLt; omega
  unfold ScatterDims.resultIdx?
  rw [dif_pos hall]
  congr 1
  funext a
  revert a
  refine Fin.forall_fin_two.2 ⟨?_, ?_⟩
  · apply Fin.ext
    show (scatter_S16384x512_S1_S16384x1_01_n_1_0.start jj idx 0 + scatter_S16384x512_S1_S16384x1_01_n_1_0.window jj 0).toNat = (jj 0).val
    rw [start_zero, window_zero]; omega
  · apply Fin.ext
    show (scatter_S16384x512_S1_S16384x1_01_n_1_0.start jj idx 1 + scatter_S16384x512_S1_S16384x1_01_n_1_0.window jj 1).toNat = c.val
    rw [start_one, window_one, hc]; omega

/-- The update index `(b, 0)` lands on `(b, c)`. -/
theorem resultIdx?_ix2 (idx : IVec S1 32) (c : Fin 512) (hidx : idx (ix1 0) = BitVec.ofNat 32 c.val) (b : Fin 16384) :
    scatter_S16384x512_S1_S16384x1_01_n_1_0.resultIdx? (ix2 b (0 : Fin 1)) idx = some (ix2 b c) :=
  resultIdx?_eq idx c hidx (ix2 b 0)

/-- The converse: what lands on `(b, j)` is the update index `(b, 0)` only, and only when `j = c`. -/
theorem eq_of_resultIdx?_eq (idx : IVec S1 32) (c : Fin 512) (hidx : idx (ix1 0) = BitVec.ofNat 32 c.val)
    (jj : S16384x1.Idx) (b : Fin 16384) (j : Fin 512)
    (h : scatter_S16384x512_S1_S16384x1_01_n_1_0.resultIdx? jj idx = some (ix2 b j)) : jj = ix2 b 0 ∧ j = c := by
  rw [resultIdx?_eq idx c hidx] at h
  have h' : ix2 (jj 0) c = ix2 b j := Option.some.inj h
  have h0 : jj 0 = b := congrFun h' 0
  have h1 : c = j := congrFun h' 1
  refine ⟨?_, h1.symm⟩
  have h1' : jj 1 = (0 : Fin 1) := Fin.ext (by have := idx2_lt1 jj; show (jj 1).val = 0; omega)
  exact (eq_ix2 jj).trans (by rw [h0, h1']; rfl)

/-- The scatter read at `(b, j)`: the operand's element, with the update's element of row `b` added when `j`
    is the column `c` the scatter index names. -/
theorem scatter_column_apply (x : FVec Ideal S16384x512 .f32) (idx : IVec S1 32) (u : FVec Ideal S16384x1 .f32)
    (c : Fin 512) (hidx : idx (ix1 0) = BitVec.ofNat 32 c.val) (b : Fin 16384) (j : Fin 512) :
    Host.scatter scatter_S16384x512_S1_S16384x1_01_n_1_0 FloatOps.addf x idx u (ix2 b j)
      = if j.val = c.val then x (ix2 b j) + u (ix2 b 0) else x (ix2 b j) := by
  by_cases hj : j.val = c.val
  · rw [if_pos hj]
    have hjc : j = c := Fin.ext hj
    subst hjc
    refine (Host.scatter_apply_of_unique scatter_S16384x512_S1_S16384x1_01_n_1_0 FloatOps.addf x idx u (ix2 b j) (ix2 b 0)
      (resultIdx?_ix2 idx j hidx b) ?_).trans rfl
    intro jj hjj
    exact (eq_of_resultIdx?_eq idx j hidx jj b j hjj).1
  · rw [if_neg hj]
    refine Host.scatter_apply_of_forall_ne scatter_S16384x512_S1_S16384x1_01_n_1_0 FloatOps.addf x idx u (ix2 b j) ?_
    intro jj hjj
    exact hj (congrArg Fin.val (eq_of_resultIdx?_eq idx c hidx jj b j hjj).2)

/-- The scatter at the constant scatter index 0: the update is added in column 0. -/
theorem scatter_column0_apply (h : S_.BroadcastsInDim S1 (![] : Fin 0 → Fin S1.rank))
    (x : FVec Ideal S16384x512 .f32) (u : FVec Ideal S16384x1 .f32) (b : Fin 16384) (j : Fin 512) :
    Host.scatter scatter_S16384x512_S1_S16384x1_01_n_1_0 FloatOps.addf x (broadcastInDim S1 ![] h (constantI S_ 32 0#32)) u (ix2 b j)
      = if j.val = 0 then x (ix2 b j) + u (ix2 b 0) else x (ix2 b j) :=
  scatter_column_apply x _ u (0 : Fin 512) rfl b j

/-- The scatter at the constant scatter index 1: the update is added in column 1. -/
theorem scatter_column1_apply (h : S_.BroadcastsInDim S1 (![] : Fin 0 → Fin S1.rank))
    (x : FVec Ideal S16384x512 .f32) (u : FVec Ideal S16384x1 .f32) (b : Fin 16384) (j : Fin 512) :
    Host.scatter scatter_S16384x512_S1_S16384x1_01_n_1_0 FloatOps.addf x (broadcastInDim S1 ![] h (constantI S_ 32 1#32)) u (ix2 b j)
      = if j.val = 1 then x (ix2 b j) + u (ix2 b 0) else x (ix2 b j) :=
  scatter_column_apply x _ u (1 : Fin 512) rfl b j

end Cert.KernelIdeal.ScatterColumn

end
-- ==== Proof.RefValue.lean ====
/-
  The reference program's result, read at batch row `b` and column `j` over the extended reals, is the
  specification's `referenceSum` of five pieces:
  * the seasonal term: the row against the 512 × 512 seasonal matrix (`rowDot`);
  * two means, one per small network: two dense layers with a rectifier between them, the 512 outputs of the
    row summed and divided by the float word of 512 (`gcnMean`), the same number in every column;
  * two column scalars, joined with 510 columns of zeros along the column axis (`ensoCol`).
  The seasonal matrix and the two column scalars are kept as the program's own stages: nothing below looks
  inside them.
-/
import proofs.«104341_j39754217292306_1_alg».proof.Proof.Gen.ReferenceIdeal.Read
import proofs.«104341_j39754217292306_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- An array of extended reals of shape `S`. -/
abbrev T (S : Shape) : Type := (⟨S, .f32⟩ : BufTy).Contents (Elt Ideal)

/-! ## The seasonal term -/

/-- The row against the seasonal matrix, contracted along the matrix's second axis: `Σ_k x0 (b, k) · L (j, k)`. -/
theorem v31_at (x0 : T S16384x512) (x1 : T S1) (x2 : T S512x512x5) (b : Fin 16384) (j : Fin 512) :
    val_main_v31 (F := Ideal) x0 x1 x2 (ix2 b j)
      = Cert.Spec.rowDot (fun k => x0 (ix2 b k)) (fun k i => val_main_v30 (F := Ideal) x1 x2 (ix2 i k)) j := by
  rw [val_main_v31_apply]
  unfold Cert.Spec.rowDot
  refine Finset.sum_congr rfl fun k _ => ?_
  have el : lidx_main_v31 (ix2 b j) k = ix2 b k :=
    funext fun a => Fin.ext (by match a with | ⟨0, _⟩ => rfl | ⟨1, _⟩ => rfl)
  have er : ridx_main_v31 (ix2 b j) k = ix2 j k :=
    funext fun a => Fin.ext (by match a with | ⟨0, _⟩ => rfl | ⟨1, _⟩ => rfl)
  rw [el, er]

/-! ## The first network's mean -/

/-- The first layer with its bias, rectified, at row `b` and hidden unit `h`. -/
theorem v36_at (x0 : T S16384x512) (x3 : T S512x512) (x4 : T S512) (b : Fin 16384) (h : Fin 512) :
    val_main_v36 (F := Ideal) x0 x3 x4 (ix2 b h)
      = max (Cert.Spec.rowDot (fun k => x0 (ix2 b k)) (fun k h => x3 (ix2 k h)) h + x4 (ix1 h)) 0 := by
  rw [val_main_v36_apply, val_main_v35_apply, val_main_v32_apply, val_main_v34_apply, val_main_v33_apply,
    val_main_call0_v0_apply, val_main_call0_cst_apply]
  simp only [Ideal.maximumf_def, Ideal.addf_def, Ideal.ofBits_def, Ideal.ofBits_zero_f32]
  unfold Cert.Spec.rowDot
  have eb : idx_main_v33 (idx_main_v34 (ix2 b h)) = ix1 h :=
    funext fun a => Fin.ext (by match a with | ⟨0, _⟩ => rfl)
  rw [eb]
  refine congrArg (fun s => max (s + x4 (ix1 h)) 0) (Finset.sum_congr rfl fun k _ => ?_)
  have el : lidx_main_v32 (ix2 b h) k = ix2 b k :=
    funext fun a => Fin.ext (by match a with | ⟨0, _⟩ => rfl | ⟨1, _⟩ => rfl)
  have er : ridx_main_v32 (ix2 b h) k = ix2 k h :=
    funext fun a => Fin.ext (by match a with | ⟨0, _⟩ => rfl | ⟨1, _⟩ => rfl)
  rw [el, er]

/-- The second layer with its bias, at row `b` and output `i`. -/
theorem v40_at (x0 : T S16384x512) (x3 : T S512x512) (x4 : T S512) (x5 : T S512x512) (x6 : T S512)
    (b : Fin 16384) (i : Fin 512) :
    val_main_v40 (F := Ideal) x0 x3 x4 x5 x6 (ix2 b i)
      = (∑ h : Fin 512, max (Cert.Spec.rowDot (fun k => x0 (ix2 b k)) (fun k h => x3 (ix2 k h)) h + x4 (ix1 h)) 0
          * x5 (ix2 h i)) + x6 (ix1 i) := by
  rw [val_main_v40_apply, val_main_v37_apply, val_main_v39_apply, val_main_v38_apply]
  simp only [Ideal.addf_def]
  have eb : idx_main_v38 (idx_main_v39 (ix2 b i)) = ix1 i :=
    funext fun a => Fin.ext (by match a with | ⟨0, _⟩ => rfl)
  rw [eb]
  refine congrArg (fun s => s + x6 (ix1 i)) (Finset.sum_congr rfl fun h _ => ?_)
  have el : lidx_main_v37 (ix2 b i) h = ix2 b h :=
    funext fun a => Fin.ext (by match a with | ⟨0, _⟩ => rfl | ⟨1, _⟩ => rfl)
  have er : ridx_main_v37 (ix2 b i) h = ix2 h i :=
    funext fun a => Fin.ext (by match a with | ⟨0, _⟩ => rfl | ⟨1, _⟩ => rfl)
  rw [el, er, v36_at]

/-- The mean of the row's 512 outputs, the same in every column `j`. -/
theorem v54_at (x0 : T S16384x512) (x3 : T S512x512) (x4 : T S512) (x5 : T S512x512) (x6 : T S512)
    (b : Fin 16384) (j : Fin 512) :
    val_main_v54 (F := Ideal) x0 x3 x4 x5 x6 (ix2 b j)
      = Cert.Spec.gcnMean (fun k => x0 (ix2 b k)) (fun k h => x3 (ix2 k h)) (fun h => x4 (ix1 h))
          (fun h i => x5 (ix2 h i)) (fun i => x6 (ix1 i)) := by
  rw [val_main_v54_apply, val_main_v53_apply, val_main_v51_apply, val_main_v50_apply, val_main_v52_apply,
    val_main_cst_4_apply, val_main_cst_3_apply]
  simp only [Ideal.hostDivf_def, Ideal.ofBits_def, Ideal.ofBits_zero_f32, zero_add]
  unfold Cert.Spec.gcnMean
  refine congrArg (fun s => Ideal.div s (Ideal.ofBits .f32 0x44000000#32)) (Finset.sum_congr rfl fun i _ => ?_)
  have ei : idx_main_v50 (idx_main_v51 (idx_main_v54 (ix2 b j))) i = ix2 b i :=
    funext fun a => Fin.ext (by match a with | ⟨0, _⟩ => rfl | ⟨1, _⟩ => rfl)
  rw [ei, v40_at]

/-! ## The second network's mean -/

/-- The first layer with its bias, rectified, at row `b` and hidden unit `h`. -/
theorem v45_at (x0 : T S16384x512) (x7 : T S512x512) (x8 : T S512) (b : Fin 16384) (h : Fin 512) :
    val_main_v45 (F := Ideal) x0 x7 x8 (ix2 b h)
      = max (Cert.Spec.rowDot (fun k => x0 (ix2 b k)) (fun k h => x7 (ix2 k h)) h + x8 (ix1 h)) 0 := by
  rw [val_main_v45_apply, val_main_v44_apply, val_main_v41_apply, val_main_v43_apply, val_main_v42_apply,
    val_main_call1_v0_apply, val_main_call1_cst_apply]
  simp only [Ideal.maximumf_def, Ideal.addf_def, Ideal.ofBits_def, Ideal.ofBits_zero_f32]
  unfold Cert.Spec.rowDot
  have eb : idx_main_v42 (idx_main_v43 (ix2 b h)) = ix1 h :=
    funext fun a => Fin.ext (by match a with | ⟨0, _⟩ => rfl)
  rw [eb]
  refine congrArg (fun s => max (s + x8 (ix1 h)) 0) (Finset.sum_congr rfl fun k _ => ?_)
  have el : lidx_main_v41 (ix2 b h) k = ix2 b k :=
    funext fun a => Fin.ext (by match a with | ⟨0, _⟩ => rfl | ⟨1, _⟩ => rfl)
  have er : ridx_main_v41 (ix2 b h) k = ix2 k h :=
    funext fun a => Fin.ext (by match a with | ⟨0, _⟩ => rfl | ⟨1, _⟩ => rfl)
  rw [el, er]

/-- The second layer with its bias, at row `b` and output `i`. -/
theorem v49_at (x0 : T S16384x512) (x7 : T S512x512) (x8 : T S512) (x9 : T S512x512) (x10 : T S512)
    (b : Fin 16384) (i : Fin 512) :
    val_main_v49 (F := Ideal) x0 x7 x8 x9 x10 (ix2 b i)
      = (∑ h : Fin 512, max (Cert.Spec.rowDot (fun k => x0 (ix2 b k)) (fun k h => x7 (ix2 k h)) h + x8 (ix1 h)) 0
          * x9 (ix2 h i)) + x10 (ix1 i) := by
  rw [val_main_v49_apply, val_main_v46_apply, val_main_v48_apply, val_main_v47_apply]
  simp only [Ideal.addf_def]
  have eb : idx_main_v47 (idx_main_v48 (ix2 b i)) = ix1 i :=
    funext fun a => Fin.ext (by match a with | ⟨0, _⟩ => rfl)
  rw [eb]
  refine congrArg (fun s => s + x10 (ix1 i)) (Finset.sum_congr rfl fun h _ => ?_)
  have el : lidx_main_v46 (ix2 b i) h = ix2 b h :=
    funext fun a => Fin.ext (by match a with | ⟨0, _⟩ => rfl | ⟨1, _⟩ => rfl)
  have er : ridx_main_v46 (ix2 b i) h = ix2 h i :=
    funext fun a => Fin.ext (by match a with | ⟨0, _⟩ => rfl | ⟨1, _⟩ => rfl)
  rw [el, er, v45_at]

/-- The mean of the row's 512 outputs, the same in every column `j`. -/
theorem v59_at (x0 : T S16384x512) (x7 : T S512x512) (x8 : T S512) (x9 : T S512x512) (x10 : T S512)
    (b : Fin 16384) (j : Fin 512) :
    val_main_v59 (F := Ideal) x0 x7 x8 x9 x10 (ix2 b j)
      = Cert.Spec.gcnMean (fun k => x0 (ix2 b k)) (fun k h => x7 (ix2 k h)) (fun h => x8 (ix1 h))
          (fun h i => x9 (ix2 h i)) (fun i => x10 (ix1 i)) := by
  rw [val_main_v59_apply, val_main_v58_apply, val_main_v56_apply, val_main_v55_apply, val_main_v57_apply,
    val_main_cst_6_apply, val_main_cst_5_apply]
  simp only [Ideal.hostDivf_def, Ideal.ofBits_def, Ideal.ofBits_zero_f32, zero_add]
  unfold Cert.Spec.gcnMean
  refine congrArg (fun s => Ideal.div s (Ideal.ofBits .f32 0x44000000#32)) (Finset.sum_congr rfl fun i _ => ?_)
  have ei : idx_main_v55 (idx_main_v56 (idx_main_v59 (ix2 b j))) i = ix2 b i :=
    funext fun a => Fin.ext (by match a with | ⟨0, _⟩ => rfl | ⟨1, _⟩ => rfl)
  rw [ei, v49_at]

/-! ## The two column scalars, joined with 510 columns of zeros -/

/-- Column 0 of the joined array is the first column scalar of the row. -/
theorem v92_col0 (x0 : T S16384x512) (x11 : T S5x32) (x12 : T S32) (x13 : T S32x1) (x14 : T S1)
    (x15 : T S5x32) (x16 : T S32) (x17 : T S32x1) (x18 : T S1) (b : Fin 16384) (j : Fin 512) (h0 : j.val = 0) :
    val_main_v92 (F := Ideal) x0 x11 x12 x13 x14 x15 x16 x17 x18 (ix2 b j)
      = val_main_v81 (F := Ideal) x0 x11 x12 x13 x14 (ix2 b 0) := by
  unfold val_main_v92
  refine concatenate_apply_piece (1 : Fin S16384x512.rank) _ _ (ix2 b j) 0 (by show 0 < 3; omega) S16384x1
    (val_main_v81 (F := Ideal) x0 x11 x12 x13 x14) rfl rfl 0 rfl (ix2 b 0) (fun a ha => ?_) ?_
  · match a with
    | ⟨0, _⟩ => rfl
    | ⟨1, _⟩ => exact absurd rfl ha
  · show 0 + 0 = j.val
    omega

/-- Column 1 of the joined array is the second column scalar of the row. -/
theorem v92_col1 (x0 : T S16384x512) (x11 : T S5x32) (x12 : T S32) (x13 : T S32x1) (x14 : T S1)
    (x15 : T S5x32) (x16 : T S32) (x17 : T S32x1) (x18 : T S1) (b : Fin 16384) (j : Fin 512) (h1 : j.val = 1) :
    val_main_v92 (F := Ideal) x0 x11 x12 x13 x14 x15 x16 x17 x18 (ix2 b j)
      = val_main_v90 (F := Ideal) x0 x15 x16 x17 x18 (ix2 b 0) := by
  unfold val_main_v92
  refine concatenate_apply_piece (1 : Fin S16384x512.rank) _ _ (ix2 b j) 1 (by show 1 < 3; omega) S16384x1
    (val_main_v90 (F := Ideal) x0 x15 x16 x17 x18) rfl rfl 1 rfl (ix2 b 0) (fun a ha => ?_) ?_
  · match a with
    | ⟨0, _⟩ => rfl
    | ⟨1, _⟩ => exact absurd rfl ha
  · show 1 + 0 = j.val
    omega

/-- Every later column of the joined array is zero. -/
theorem v92_rest (x0 : T S16384x512) (x11 : T S5x32) (x12 : T S32) (x13 : T S32x1) (x14 : T S1)
    (x15 : T S5x32) (x16 : T S32) (x17 : T S32x1) (x18 : T S1) (b : Fin 16384) (j : Fin 512) (h2 : 2 ≤ j.val) :
    val_main_v92 (F := Ideal) x0 x11 x12 x13 x14 x15 x16 x17 x18 (ix2 b j) = 0 := by
  have hj : j.val - 2 < 510 := by have := j.isLt; omega
  have e : val_main_v92 (F := Ideal) x0 x11 x12 x13 x14 x15 x16 x17 x18 (ix2 b j)
      = val_main_v91 (F := Ideal) (ix2 b (⟨j.val - 2, hj⟩ : Fin 510)) := by
    unfold val_main_v92
    refine concatenate_apply_piece (1 : Fin S16384x512.rank) _ _ (ix2 b j) 2 (by show 2 < 3; omega) S16384x510
      (val_main_v91 (F := Ideal)) rfl rfl 2 rfl (ix2 b (⟨j.val - 2, hj⟩ : Fin 510)) (fun a ha => ?_) ?_
    · match a with
      | ⟨0, _⟩ => rfl
      | ⟨1, _⟩ => exact absurd rfl ha
    · show 2 + (j.val - 2) = j.val
      omega
  rw [e, val_main_v91_apply, val_main_cst_7_apply]
  simp only [Ideal.ofBits_def, Ideal.ofBits_zero_f32]

/-- The joined array at row `b` and column `j`: the first scalar in column 0, the second in column 1, nothing
    elsewhere. -/
theorem v92_at (x0 : T S16384x512) (x11 : T S5x32) (x12 : T S32) (x13 : T S32x1) (x14 : T S1)
    (x15 : T S5x32) (x16 : T S32) (x17 : T S32x1) (x18 : T S1) (b : Fin 16384) (j : Fin 512) :
    val_main_v92 (F := Ideal) x0 x11 x12 x13 x14 x15 x16 x17 x18 (ix2 b j)
      = Cert.Spec.ensoCol (val_main_v81 (F := Ideal) x0 x11 x12 x13 x14 (ix2 b 0))
          (val_main_v90 (F := Ideal) x0 x15 x16 x17 x18 (ix2 b 0)) j := by
  unfold Cert.Spec.ensoCol
  by_cases h0 : j.val = 0
  · rw [if_pos h0]; exact v92_col0 x0 x11 x12 x13 x14 x15 x16 x17 x18 b j h0
  · by_cases h1 : j.val = 1
    · rw [if_neg h0, if_pos h1]; exact v92_col1 x0 x11 x12 x13 x14 x15 x16 x17 x18 b j h1
    · rw [if_neg h0, if_neg h1]; exact v92_rest x0 x11 x12 x13 x14 x15 x16 x17 x18 b j (by omega)

/-! ## The result -/

/-- The reference's result at row `b` and column `j`: the seasonal term plus (the two means plus the column
    scalars' array), in the reference's own order of additions. -/
theorem ref_apply (x0 : (⟨S16384x512, .f32⟩ : BufTy).Contents (Elt Ideal)) (x1 : (⟨S1, .f32⟩ : BufTy).Contents (Elt Ideal)) (x2 : (⟨S512x512x5, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S5x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) (x15 : (⟨S5x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal)) (b : Fin 16384) (j : Fin 512) :
    val_main_v94 (F := Ideal) x0 x1 x2 x3 x4 x5 x6 x7 x8 x9 x10 x11 x12 x13 x14 x15 x16 x17 x18 (ix2 b j)
      = Cert.Spec.referenceSum
          (Cert.Spec.rowDot (fun k => x0 (ix2 b k)) (fun k i => val_main_v30 (F := Ideal) x1 x2 (ix2 i k)) j)
          (Cert.Spec.gcnMean (fun k => x0 (ix2 b k)) (fun k h => x3 (ix2 k h)) (fun h => x4 (ix1 h)) (fun h i => x5 (ix2 h i)) (fun i => x6 (ix1 i)))
          (Cert.Spec.gcnMean (fun k => x0 (ix2 b k)) (fun k h => x7 (ix2 k h)) (fun h => x8 (ix1 h)) (fun h i => x9 (ix2 h i)) (fun i => x10 (ix1 i)))
          (val_main_v81 (F := Ideal) x0 x11 x12 x13 x14 (ix2 b 0))
          (val_main_v90 (F := Ideal) x0 x15 x16 x17 x18 (ix2 b 0))
          j := by
  rw [val_main_v94_apply, val_main_v93_apply, val_main_v60_apply]
  simp only [Ideal.addf_def]
  rw [v31_at, v54_at, v59_at, v92_at]
  rfl

end Cert.ReferenceIdeal.RefValue

end
-- ==== Proof.KernelIdealRun.lean ====
/-
  The idealized kernel program's run, read: its result as one function of the argument arrays.

  After the region the output array holds `Kout` (one number per row from each small network, plus the row
  against the seasonal matrix).  The host stretches that follow compute the two extra columns from columns 0
  and 1 of the input — the SAME host operations the reference applies, so they are carried as the reference's
  own stage functions and never opened — and add them into columns 0 and 1 by two scatter-adds, each of which
  adds ONE 16384 × 1 update at a constant column.  Read at row `b`, column `j`, the result is the
  specification's `kernelSum`; the reference's result there is `referenceSum` of the same five numbers, and the
  two agree by the associativity of addition on the extended reals.
-/
import proofs.«104341_j39754217292306_1_alg».proof.Proof.KernelIdealFrame
import proofs.«104341_j39754217292306_1_alg».proof.Proof.KernelIdealHostValues
import proofs.«104341_j39754217292306_1_alg».proof.Proof.KernelIdealValue
import proofs.«104341_j39754217292306_1_alg».proof.Proof.ScatterColumn
import proofs.«104341_j39754217292306_1_alg».proof.Proof.RefValue
import proofs.«104341_j39754217292306_1_alg».proof.Proof.Spec

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The two extra columns, as the reference's stage functions of the kernel program's own arguments. -/
abbrev colT (c : Dev nD) : S16384x1.Idx → EReal :=
  Cert.ReferenceIdeal.Read.val_main_v81 (F := Ideal) (m ((c : Thread nD τ).loc main_arg0)) (m ((c : Thread nD τ).loc main_arg11))
    (m ((c : Thread nD τ).loc main_arg12)) (m ((c : Thread nD τ).loc main_arg13)) (m ((c : Thread nD τ).loc main_arg14))
abbrev colH (c : Dev nD) : S16384x1.Idx → EReal :=
  Cert.ReferenceIdeal.Read.val_main_v90 (F := Ideal) (m ((c : Thread nD τ).loc main_arg0)) (m ((c : Thread nD τ).loc main_arg15))
    (m ((c : Thread nD τ).loc main_arg16)) (m ((c : Thread nD τ).loc main_arg17)) (m ((c : Thread nD τ).loc main_arg18))

/-- The program's result: the region's output with the two columns scattered in. -/
def result (c : Dev nD) : S16384x512.Idx → EReal :=
  Host.scatter scatter_S16384x512_S1_S16384x1_01_n_1_0 (FloatOps.addf (F := Ideal) (φ := .f32))
    (Host.scatter scatter_S16384x512_S1_S16384x1_01_n_1_0 (FloatOps.addf (F := Ideal) (φ := .f32)) (Kout m c)
      (broadcastInDim S1 ![] bcast_S_S1 (constantI S_ 32 0#32)) (colT m c))
    (broadcastInDim S1 ![] bcast_S_S1 (constantI S_ 32 1#32)) (colH m c)

set_option maxHeartbeats 4000000 in
/-- The result, at row `b` and column `j`: the kernel's order of additions. -/
theorem result_apply (c : Dev nD) (b : Fin 16384) (j : Fin 512) :
    result m c (ix2 b j)
      = Cert.Spec.kernelSum
          (Cert.Spec.rowDot (fun k => aX m c (ix2 b k)) (fun k j' => aLT m c (ix2 k j')) j)
          (Cert.Spec.gcnMean (fun k => aX m c (ix2 b k)) (fun k h => aQW1 m c (ix2 k h)) (fun h => aQB1 m c (ix2 0 h))
            (fun h j' => aQW2 m c (ix2 h j')) (fun j' => aQB2 m c (ix2 0 j')))
          (Cert.Spec.gcnMean (fun k => aX m c (ix2 b k)) (fun k h => aCW1 m c (ix2 k h)) (fun h => aCB1 m c (ix2 0 h))
            (fun h j' => aCW2 m c (ix2 h j')) (fun j' => aCB2 m c (ix2 0 j')))
          (colT m c (ix2 b 0)) (colH m c (ix2 b 0)) j := by
  unfold result
  rw [Cert.KernelIdeal.ScatterColumn.scatter_column1_apply, Cert.KernelIdeal.ScatterColumn.scatter_column0_apply]
  have hK : Kout m c (ix2 b j) = KoutAt m c b j := rfl
  rw [hK]
  unfold KoutAt Cert.Spec.kernelSum
  rfl

set_option maxHeartbeats 4000000 in
/-- The result is the reference's result stage of the same arguments. -/
theorem result_eq (c : Dev nD) :
    result m c = Cert.ReferenceIdeal.Read.val_main_v94 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16))
      (m ((c : Thread nD τ).loc main_arg17)) (m ((c : Thread nD τ).loc main_arg18)) := by
  funext i
  obtain ⟨b, j, rfl⟩ : ∃ (b : Fin 16384) (j : Fin 512), i = ix2 b j := ⟨i 0, i 1, eq_ix2 i⟩
  rw [result_apply, Cert.Spec.grouping, Cert.ReferenceIdeal.RefValue.ref_apply]
  have hx : (fun k => aX m c (ix2 b k)) = fun k => m ((c : Thread nD τ).loc main_arg0) (ix2 b k) :=
    funext fun k => congrFun (V_main_arg0 m c) (ix2 b k)
  have hlt : (fun k j' => aLT m c (ix2 k j'))
      = fun k i => Cert.ReferenceIdeal.Read.val_main_v30 (F := Ideal) (m ((c : Thread nD τ).loc main_arg1)) (m ((c : Thread nD τ).loc main_arg2)) (ix2 i k) :=
    funext fun k => funext fun j' => lt_at m c k j'
  have h33 : (fun k h => aQW1 m c (ix2 k h)) = fun k h => m ((c : Thread nD τ).loc main_arg3) (ix2 k h) := funext fun k => funext fun h => w_at33 m c k h
  have h37 : (fun h => aQB1 m c (ix2 0 h)) = fun h => m ((c : Thread nD τ).loc main_arg4) (ix1 h) := funext fun h => b_at37 m c h
  have h34 : (fun h j' => aQW2 m c (ix2 h j')) = fun h i => m ((c : Thread nD τ).loc main_arg5) (ix2 h i) := funext fun h => funext fun i => w_at34 m c h i
  have h38 : (fun j' => aQB2 m c (ix2 0 j')) = fun i => m ((c : Thread nD τ).loc main_arg6) (ix1 i) := funext fun i => b_at38 m c i
  have h35 : (fun k h => aCW1 m c (ix2 k h)) = fun k h => m ((c : Thread nD τ).loc main_arg7) (ix2 k h) := funext fun k => funext fun h => w_at35 m c k h
  have h39 : (fun h => aCB1 m c (ix2 0 h)) = fun h => m ((c : Thread nD τ).loc main_arg8) (ix1 h) := funext fun h => b_at39 m c h
  have h36 : (fun h j' => aCW2 m c (ix2 h j')) = fun h i => m ((c : Thread nD τ).loc main_arg9) (ix2 h i) := funext fun h => funext fun i => w_at36 m c h i
  have h40 : (fun j' => aCB2 m c (ix2 0 j')) = fun i => m ((c : Thread nD τ).loc main_arg10) (ix1 i) := funext fun i => b_at40 m c i
  rw [hx, hlt, h33, h37, h34, h38, h35, h39, h36, h40]

set_option maxHeartbeats 4000000 in
/-- What the frame run's post says of the result buffer. -/
theorem result_mem (r : PUnit × MemSt nD τ sig (Elt Ideal))
    (h : Pipeline.FramePost cfgs (dats m) 0 (Pipeline.afterTail₀ cfgs (dats m) 0 (V0 m) tailOps) r) (c : Dev nD) :
    r.2.mem ((c.tc : Thread nD τ).loc main_v75) = result m c := by
  refine ((h c).2 main_v75 (Pipeline.mem_restRefs_of main_v75 (by decide) (by decide))).trans ?_
  rw [tail_result, final]
  rfl

set_option maxHeartbeats 4000000 in
/-- THE RUN: every weakly fair execution of the idealized kernel program ends with the result buffer at `result` and the
    nineteen argument arrays as launched. -/
theorem run : θ_run defs (onTc (τ := τ) (main (F := Ideal))) ⟨m, fun _ => 0, ρ⟩ (fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨result_mem m r h c, kept m r h c⟩) (run_main m ρ)

end Cert.KernelIdeal.KValue

end
-- ==== Proof.RefFrame.lean ====
/-
  The reference program has no kernel launch: its run is a straight line of host operations, so every
  weakly fair execution ends, nothing faults, and no argument array is ever written.  The frame is the
  run's post with the result's value dropped.
-/
import proofs.«104341_j39754217292306_1_alg».proof.Defs
import proofs.«104341_j39754217292306_1_alg».proof.Proof.Gen.ReferenceIdeal
import proofs.«104341_j39754217292306_1_alg».proof.Proof.Gen.Pre_finite_inputs
import proofs.«104341_j39754217292306_1_alg».proof.Proof.Gen.ReferenceIdeal.Run
import proofs.«104341_j39754217292306_1_alg».proof.Proof.Gen.ReferenceIdeal.Read

noncomputable section

namespace Cert.Proof.RefFrame

open Idealize.ShloMosaic Idealize.SL.Sem

/-- Every argument array of the reference ends as it was launched. -/
theorem frame : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.Proof.RefFrame

end
-- ==== Proof.lean ====
/-
  The certificate: the kernel program (a seasonal linear term, two small two-layer networks averaged over their
  outputs, two extra columns) computes what its reference computes, over the extended reals.

  * The three frames.  The kernel program is host operations, one pipelined region on a grid of 16 points, and host
    operations again; its region's body only loads whole input blocks and stores one whole output block, so the
    pipeline's frame theorem applies with proof data that leave every input block in place; no host operation writes
    an argument array.  The same text proves it for the printed program and for its idealization.  The reference is a
    straight line of host operations.
  * The idealization rewrote nothing, so there is nothing to preserve.
  * The values.  At the ideal instance a change of float format is the identity, a matrix product into a zero
    accumulator and a host dot product are the same sum, and a lane sum and a host sum are the same sum.  Row by row
    both programs add the same five numbers — the row against the seasonal matrix, the two network means, the two
    extra columns — the kernel as `((lin + q) + c)` then `+ cT` in column 0 and `+ cH` in column 1 (two scatter-adds
    of one column each), the reference as `lin + ((q + c) + [cT, cH, 0, …, 0])`.  Addition on the extended reals is
    associative with neutral `0`, so the two results agree at every index, whatever the inputs: the finiteness
    precondition is not used.
-/
import proofs.«104341_j39754217292306_1_alg».proof.Defs
import proofs.«104341_j39754217292306_1_alg».proof.Proof.Gen.Kernel
import proofs.«104341_j39754217292306_1_alg».proof.Proof.Gen.KernelIdeal
import proofs.«104341_j39754217292306_1_alg».proof.Proof.Gen.ReferenceIdeal
import proofs.«104341_j39754217292306_1_alg».proof.Proof.Gen.Pre_finite_inputs
import proofs.«104341_j39754217292306_1_alg».proof.Proof.KernelFrame
import proofs.«104341_j39754217292306_1_alg».proof.Proof.KernelIdealFrame
import proofs.«104341_j39754217292306_1_alg».proof.Proof.KernelIdealRun
import proofs.«104341_j39754217292306_1_alg».proof.Proof.RefFrame
import Idealize.ShloMosaic.Adequacy
import Idealize.ShloMosaic.Init

noncomputable section

namespace Cert.Proof

open Idealize.ShloMosaic Idealize.SL.Sem

/-- The two idealized programs, from memories that agree on the arguments, end with equal results: the kernel
    program's run leaves its result at a function of its arguments that IS the reference's result stage of the same
    arguments (`result_eq`), and the reference's run leaves its result at that stage of its own arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v94_eq, a0, a1, a2, a3, a4, a5, a6, a7, a8, a9, a10, a11, a12, a13, a14, a15, a16, a17, a18]
  exact (Cert.KernelIdeal.KValue.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.Proof.RefFrame.frame,
  trivial,
  algebraic⟩

end Cert.Proof

end
